-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S3200000 : Shape := ⟨1, ![3200000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S64x1 .f32) (main_arg6 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x1 .f32 := Host.absf main_arg5
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S100000x128 .f32) (main_arg1 : IVec S2x3200000 32) (main_arg2 : FVec F S3200000 .f32) (main_arg3 : FVec F S128x64 .f32) (main_arg4 : FVec F S64 .f32) (main_arg5 : FVec F S64x1 .f32) (main_arg6 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x128 : Shape := ⟨2, ![100000, 128]⟩
abbrev S2x3200000 : Shape := ⟨2, ![2, 3200000]⟩
abbrev S3200000 : Shape := ⟨1, ![3200000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000 : Shape := ⟨1, ![100000]⟩
abbrev S1x3200000 : Shape := ⟨2, ![1, 3200000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S5000x128 : Shape := ⟨2, ![5000, 128]⟩
abbrev S5000x64 : Shape := ⟨2, ![5000, 64]⟩
abbrev S3300000x64 : Shape := ⟨2, ![3300000, 64]⟩
abbrev S6600x64 : Shape := ⟨2, ![6600, 64]⟩
abbrev S6600x1 : Shape := ⟨2, ![6600, 1]⟩
abbrev S1x64 : Shape := ⟨2, ![1, 64]⟩
abbrev S100000x1 : Shape := ⟨2, ![100000, 1]⟩
abbrev S5000x1 : Shape := ⟨2, ![5000, 1]⟩
abbrev S1x1 : Shape := ⟨2, ![1, 1]⟩

abbrev nBuf : Space → Nat
  | .hbm => 91
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S3200000, .f32⟩
  | .hbm, ⟨3, _⟩ => ⟨S128x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S100000, .i32⟩
  | .hbm, ⟨8, _⟩ => ⟨S1x3200000, .i32⟩
  | .hbm, ⟨9, _⟩ => ⟨S3200000, .i32⟩
  | .hbm, ⟨10, _⟩ => ⟨S3300000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S_, .f32⟩
  | .hbm, ⟨15, _⟩ => ⟨S100000, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000, .f32⟩
  | .hbm, ⟨55, _⟩ => ⟨S3300000, .f32⟩
  | .hbm, ⟨56, _⟩ => ⟨S3300000x1, .f32⟩
  | .hbm, ⟨57, _⟩ => ⟨S100000x64, .f32⟩
  | .hbm, ⟨58, _⟩ => ⟨S_, .i32⟩
  | .hbm, ⟨59, _⟩ => ⟨S3300000, .i32⟩
  | .hbm, ⟨60, _⟩ => ⟨S3300000, .i1⟩
  | .hbm, ⟨61, _⟩ => ⟨S_, .i32⟩
  | .hbm, ⟨62, _⟩ => ⟨S3300000, .i32⟩
  | .hbm, ⟨63, _⟩ => ⟨S3300000, .i32⟩
  | .hbm, ⟨64, _⟩ => ⟨S3300000, .i32⟩
  | .hbm, ⟨65, _⟩ => ⟨S3300000x1, .i32⟩
  | .hbm, ⟨66, _⟩ => ⟨S3300000x64, .f32⟩
  | .hbm, ⟨67, _⟩ => ⟨S3300000x64, .f32⟩
  | .hbm, ⟨68, _⟩ => ⟨S_, .f32⟩
  | .hbm, ⟨69, _⟩ => ⟨S100000x64, .f32⟩
  | .hbm, ⟨70, _⟩ => ⟨S3300000x1, .i32⟩
  | .hbm, ⟨71, _⟩ => ⟨S100000x64, .f32⟩
  | .hbm, ⟨72, _⟩ => ⟨S1x64, .f32⟩
  | .hbm, ⟨73, _⟩ => ⟨S100000x1, .f32⟩
  | .hbm, ⟨74, _⟩ => ⟨S_, .i32⟩
  | .hbm, ⟨75, _⟩ => ⟨S3300000, .i32⟩
  | .hbm, ⟨76, _⟩ => ⟨S3300000, .i1⟩
  | .hbm, ⟨77, _⟩ => ⟨S_, .i32⟩
  | .hbm, ⟨78, _⟩ => ⟨S3300000, .i32⟩
  | .hbm, ⟨79, _⟩ => ⟨S3300000, .i32⟩
  | .hbm, ⟨80, _⟩ => ⟨S3300000, .i32⟩
  | .hbm, ⟨81, _⟩ => ⟨S3300000x1, .i32⟩
  | .hbm, ⟨82, _⟩ => ⟨S3300000x1, .f32⟩
  | .hbm, ⟨83, _⟩ => ⟨S3300000x1, .f32⟩
  | .hbm, ⟨84, _⟩ => ⟨S_, .f32⟩
  | .hbm, ⟨85, _⟩ => ⟨S100000x1, .f32⟩
  | .hbm, ⟨86, _⟩ => ⟨S3300000x1, .i32⟩
  | .hbm, ⟨87, _⟩ => ⟨S100000x1, .f32⟩
  | .hbm, ⟨88, _⟩ => ⟨S1x1, .f32⟩
  | .hbm, ⟨89, _⟩ => ⟨S100000x1, .f32⟩
  | .hbm, ⟨90, _⟩ => ⟨S100000x1, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S6600x64, .f32⟩
  | .local _ .vmem, ⟨6, _⟩ => ⟨S6600x64, .f32⟩
  | .local _ .vmem, ⟨7, _⟩ => ⟨S6600x1, .f32⟩
  | .local _ .vmem, ⟨8, _⟩ => ⟨S6600x1, .f32⟩
  | .local _ .vmem, ⟨9, _⟩ => ⟨S6600x64, .f32⟩
  | .local _ .vmem, ⟨10, _⟩ => ⟨S6600x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S64x1, .f32⟩
  | .local _ .vmem, ⟨15, _⟩ => ⟨S5000x1, .f32⟩
  | .local _ .vmem, ⟨16, _⟩ => ⟨S5000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_call1_v0 : Ref sig .tc := ⟨.hbm, 33, rfl⟩
abbrev main_call1_v1 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_5 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_c_6 : Ref sig .tc := ⟨.hbm, 46, rfl⟩
abbrev main_v27 : Ref sig .tc := ⟨.hbm, 47, rfl⟩
abbrev main_v28 : Ref sig .tc := ⟨.hbm, 48, rfl⟩
abbrev main_c_7 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_8 : Ref sig .tc := ⟨.hbm, 58, rfl⟩
abbrev main_v37 : Ref sig .tc := ⟨.hbm, 59, rfl⟩
abbrev main_v38 : Ref sig .tc := ⟨.hbm, 60, rfl⟩
abbrev main_c_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_10 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_c_11 : Ref sig .tc := ⟨.hbm, 74, rfl⟩
abbrev main_v50 : Ref sig .tc := ⟨.hbm, 75, rfl⟩
abbrev main_v51 : Ref sig .tc := ⟨.hbm, 76, rfl⟩
abbrev main_c_12 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_13 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![500], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6600x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6600x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6600x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000 : S_.BroadcastsInDim S100000 (![] : Fin 0 → Fin S100000.rank)
  bcast_S3300000_S3300000x1_0 : S3300000.BroadcastsInDim S3300000x1 (![0] : Fin 1 → Fin S3300000x1.rank)
  bcast_S_S3300000 : S_.BroadcastsInDim S3300000 (![] : Fin 0 → Fin S3300000.rank)
  shapeCasts_S3300000_S3300000x1 : S3300000.ShapeCasts S3300000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  inb_S6600x64_S6600x64_0_0 : ∀ a, (![0, 0] : Fin 2 → Nat) a + S6600x64.size a ≤ S6600x64.size a
  h_S6600x64 : 0 < S6600x64.numel
  shapeCasts_S6600x64_S6600x64 : S6600x64.ShapeCasts S6600x64
  inb_S6600x1_S6600x1_0_0 : ∀ a, (![0, 0] : Fin 2 → Nat) a + S6600x1.size a ≤ S6600x1.size a
  h_S6600x1 : 0 < S6600x1.numel
  shapeCasts_S6600x1_S6600x1 : S6600x1.ShapeCasts S6600x1
  broadcasts_S6600x1_S6600x64 : S6600x1.Broadcasts S6600x64
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x1_S64x1_0_0 : ∀ a, (![0, 0] : Fin 2 → Nat) a + S64x1.size a ≤ S64x1.size a
  h_S64x1 : 0 < S64x1.numel
  inb_S5000x1_S5000x1_0_0 : ∀ a, (![0, 0] : Fin 2 → Nat) a + S5000x1.size a ≤ S5000x1.size a
  h_S5000x1 : 0 < S5000x1.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x128_S128x64_S5000x64_1_0_0_1_n_n_wf : DotDims.WF S5000x128 S128x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x1_S5000x1_1_0_0_1_n_n_wf : DotDims.WF S5000x64 S64x1 S5000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6600x64.size a ≤ S3300000x64.size a
  hwx1_0 : ∀ i : grid1.Coords, EltTy.bits .f32 = 32 ∨ (Rect.block (s := S3300000x64) S6600x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6600x1.size a ≤ S3300000x1.size a
  hwx1_1 : ∀ i : grid1.Coords, EltTy.bits .f32 = 32 ∨ (Rect.block (s := S3300000x1) S6600x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6600x64.size a ≤ S3300000x64.size a
  hwx1_2 : ∀ i : grid1.Coords, EltTy.bits .f32 = 32 ∨ (Rect.block (s := S3300000x64) S6600x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x1.size a ≤ S64x1.size a
  hwx2_2 : ∀ i : grid2.Coords, EltTy.bits .f32 = 32 ∨ (Rect.block (s := S64x1) S64x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S100000x1.size a
  hwx2_3 : ∀ i : grid2.Coords, EltTy.bits .f32 = 32 ∨ (Rect.block (s := S100000x1) S5000x1.size (cc2_transform_3 i) (hinb2_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S6600x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S6600x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v44) S6600x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S64x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v49) S5000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S3200000 : Shape := ⟨1, ![3200000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000 : Shape := ⟨1, ![100000]⟩
abbrev S1x100000 : Shape := ⟨2, ![1, 100000]⟩
abbrev S2x100000 : Shape := ⟨2, ![2, 100000]⟩
abbrev S2x3300000 : Shape := ⟨2, ![2, 3300000]⟩
abbrev S_ : Shape := ⟨0, ![]⟩
abbrev S3300000 : Shape := ⟨1, ![3300000]⟩
abbrev S1x3300000 : Shape := ⟨2, ![1, 3300000]⟩
abbrev S3300000x1 : Shape := ⟨2, ![3300000, 1]⟩
abbrev S100000x64 : Shape := ⟨2, ![100000, 64]⟩
abbrev S3300000x64 : Shape := ⟨2, ![3300000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 143
  | .vmem => 0
  | .smem => 0
  | _ => 0

abbrev hbmTy0_0 (i : Nat) : BufTy := match i % 128 with
  | 0 => ⟨S100000x128, .f32⟩
  | 1 => ⟨S2x3200000, .i32⟩
  | 2 => ⟨S3200000, .f32⟩
  | 3 => ⟨S128x64, .f32⟩
  | 4 => ⟨S64, .f32⟩
  | 5 => ⟨S64x1, .f32⟩
  | 6 => ⟨S1, .f32⟩
  | 7 => ⟨S100000, .i32⟩
  | 8 => ⟨S1x100000, .i32⟩
  | 9 => ⟨S1x100000, .i32⟩
  | 10 => ⟨S2x100000, .i32⟩
  | 11 => ⟨S2x3300000, .i32⟩
  | 12 => ⟨S_, .f32⟩
  | 13 => ⟨S100000, .f32⟩
  | 14 => ⟨S3300000, .f32⟩
  | 15 => ⟨S1x3300000, .i32⟩
  | 16 => ⟨S3300000, .i32⟩
  | 17 => ⟨S1x3300000, .i32⟩
  | 18 => ⟨S3300000, .i32⟩
  | 19 => ⟨S_, .f32⟩
  | 20 => ⟨S100000, .f32⟩
  | 21 => ⟨S3300000x1, .i32⟩
  | 22 => ⟨S100000, .f32⟩
  | 23 => ⟨S_, .f32⟩
  | 24 => ⟨S100000, .f32⟩
  | 25 => ⟨S100000, .i1⟩
  | 26 => ⟨S_, .f32⟩
  | 27 => ⟨S_, .f32⟩
  | 28 => ⟨S100000, .f32⟩
  | 29 => ⟨S100000, .f32⟩
  | 30 => ⟨S_, .f32⟩
  | 31 => ⟨S100000, .f32⟩
  | 32 => ⟨S100000, .i1⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S3300000, .i32⟩
  | 40 => ⟨S3300000, .i1⟩
  | 41 => ⟨S_, .i32⟩
  | 42 => ⟨S3300000, .i32⟩
  | 43 => ⟨S3300000, .i32⟩
  | 44 => ⟨S3300000, .i32⟩
  | 45 => ⟨S3300000x1, .i32⟩
  | 46 => ⟨S3300000, .f32⟩
  | 47 => ⟨S3300000, .f32⟩
  | 48 => ⟨S_, .i32⟩
  | 49 => ⟨S3300000, .i32⟩
  | 50 => ⟨S3300000, .i1⟩
  | 51 => ⟨S_, .i32⟩
  | 52 => ⟨S3300000, .i32⟩
  | 53 => ⟨S3300000, .i32⟩
  | 54 => ⟨S3300000, .i32⟩
  | 55 => ⟨S3300000x1, .i32⟩
  | 56 => ⟨S3300000, .f32⟩
  | 57 => ⟨S3300000, .f32⟩
  | 58 => ⟨S100000x64, .f32⟩
  | 59 => ⟨S3300000x1, .f32⟩
  | 60 => ⟨S_, .i32⟩
  | 61 => ⟨S3300000, .i32⟩
  | 62 => ⟨S3300000, .i1⟩
  | 63 => ⟨S_, .i32⟩
  | 64 => ⟨S3300000, .i32⟩
  | 65 => ⟨S3300000, .i32⟩
  | 66 => ⟨S3300000, .i32⟩
  | 67 => ⟨S3300000x1, .i32⟩
  | 68 => ⟨S3300000x64, .f32⟩
  | 69 => ⟨S3300000x64, .f32⟩
  | 70 => ⟨S3300000x64, .f32⟩
  | 71 => ⟨S_, .f32⟩
  | 72 => ⟨S100000x64, .f32⟩
  | 73 => ⟨S3300000x1, .i32⟩
  | 74 => ⟨S100000x64, .f32⟩
  | 75 => ⟨S1x64, .f32⟩
  | 76 => ⟨S100000x64, .f32⟩
  | 77 => ⟨S100000x64, .f32⟩
  | 78 => ⟨S_, .f32⟩
  | 79 => ⟨S100000x64, .f32⟩
  | 80 => ⟨S100000x64, .f32⟩
  | 81 => ⟨S1x3300000, .i32⟩
  | 82 => ⟨S3300000, .i32⟩
  | 83 => ⟨S1x3300000, .i32⟩
  | 84 => ⟨S3300000, .i32⟩
  | 85 => ⟨S_, .f32⟩
  | 86 => ⟨S100000, .f32⟩
  | 87 => ⟨S3300000x1, .i32⟩
  | 88 => ⟨S100000, .f32⟩
  | 89 => ⟨S_, .f32⟩
  | 90 => ⟨S100000, .f32⟩
  | 91 => ⟨S100000, .i1⟩
  | 92 => ⟨S_, .f32⟩
  | 93 => ⟨S_, .f32⟩
  | 94 => ⟨S100000, .f32⟩
  | 95 => ⟨S100000, .f32⟩
  | 96 => ⟨S_, .f32⟩
  | 97 => ⟨S100000, .f32⟩
  | 98 => ⟨S100000, .i1⟩
  | 99 => ⟨S100000, .f32⟩
  | 100 => ⟨S_, .f32⟩
  | 101 => ⟨S_, .f32⟩
  | 102 => ⟨S100000, .f32⟩
  | 103 => ⟨S100000, .f32⟩
  | 104 => ⟨S_, .i32⟩
  | 105 => ⟨S3300000, .i32⟩
  | 106 => ⟨S3300000, .i1⟩
  | 107 => ⟨S_, .i32⟩
  | 108 => ⟨S3300000, .i32⟩
  | 109 => ⟨S3300000, .i32⟩
  | 110 => ⟨S3300000, .i32⟩
  | 111 => ⟨S3300000x1, .i32⟩
  | 112 => ⟨S3300000, .f32⟩
  | 113 => ⟨S3300000, .f32⟩
  | 114 => ⟨S_, .i32⟩
  | 115 => ⟨S3300000, .i32⟩
  | 116 => ⟨S3300000, .i1⟩
  | 117 => ⟨S_, .i32⟩
  | 118 => ⟨S3300000, .i32⟩
  | 119 => ⟨S3300000, .i32⟩
  | 120 => ⟨S3300000, .i32⟩
  | 121 => ⟨S3300000x1, .i32⟩
  | 122 => ⟨S3300000, .f32⟩
  | 123 => ⟨S3300000, .f32⟩
  | 124 => ⟨S100000x1, .f32⟩
  | 125 => ⟨S3300000x1, .f32⟩
  | 126 => ⟨S_, .i32⟩
  | 127 => ⟨S3300000, .i32⟩
  | _ => ⟨S100000x128, .f32⟩

abbrev hbmTy0_1 (i : Nat) : BufTy := match i % 128 with
  | 0 => ⟨S3300000, .i1⟩
  | 1 => ⟨S_, .i32⟩
  | 2 => ⟨S3300000, .i32⟩
  | 3 => ⟨S3300000, .i32⟩
  | 4 => ⟨S3300000, .i32⟩
  | 5 => ⟨S3300000x1, .i32⟩
  | 6 => ⟨S3300000x1, .f32⟩
  | 7 => ⟨S3300000x1, .f32⟩
  | 8 => ⟨S_, .f32⟩
  | 9 => ⟨S100000x1, .f32⟩
  | 10 => ⟨S3300000x1, .i32⟩
  | 11 => ⟨S100000x1, .f32⟩
  | 12 => ⟨S1x1, .f32⟩
  | 13 => ⟨S100000x1, .f32⟩
  | 14 => ⟨S100000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v20 : Ref sig .tc := ⟨.hbm, 37, rfl⟩
abbrev main_c : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_c_7 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_8 : Ref sig .tc := ⟨.hbm, 60, rfl⟩
abbrev main_v39 : Ref sig .tc := ⟨.hbm, 61, rfl⟩
abbrev main_v40 : Ref sig .tc := ⟨.hbm, 62, rfl⟩
abbrev main_c_9 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_call2_cst : Ref sig .tc := ⟨.hbm, 78, rfl⟩
abbrev main_call2_v0 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_12 : Ref sig .tc := ⟨.hbm, 89, rfl⟩
abbrev main_v62 : Ref sig .tc := ⟨.hbm, 90, rfl⟩
abbrev main_v63 : Ref sig .tc := ⟨.hbm, 91, rfl⟩
abbrev main_cst_13 : Ref sig .tc := ⟨.hbm, 92, rfl⟩
abbrev main_call3_v0 : Ref sig .tc := ⟨.hbm, 93, rfl⟩
abbrev main_call3_v1 : Ref sig .tc := ⟨.hbm, 94, rfl⟩
abbrev main_v64 : Ref sig .tc := ⟨.hbm, 95, rfl⟩
abbrev main_cst_14 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_15 : Ref sig .tc := ⟨.hbm, 100, rfl⟩
abbrev main_call4_v0 : Ref sig .tc := ⟨.hbm, 101, rfl⟩
abbrev main_call4_v1 : Ref sig .tc := ⟨.hbm, 102, rfl⟩
abbrev main_v68 : Ref sig .tc := ⟨.hbm, 103, rfl⟩
abbrev main_c_16 : Ref sig .tc := ⟨.hbm, 104, rfl⟩
abbrev main_v69 : Ref sig .tc := ⟨.hbm, 105, rfl⟩
abbrev main_v70 : Ref sig .tc := ⟨.hbm, 106, rfl⟩
abbrev main_c_17 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_c_18 : Ref sig .tc := ⟨.hbm, 114, rfl⟩
abbrev main_v77 : Ref sig .tc := ⟨.hbm, 115, rfl⟩
abbrev main_v78 : Ref sig .tc := ⟨.hbm, 116, rfl⟩
abbrev main_c_19 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_c_20 : Ref sig .tc := ⟨.hbm, 126, rfl⟩
abbrev main_v87 : Ref sig .tc := ⟨.hbm, 127, rfl⟩
abbrev main_v88 : Ref sig .tc := ⟨.hbm, 128, rfl⟩
abbrev main_c_21 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_cst_22 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩

abbrev nD : Nat := 1
abbrev τ : Topo := Topo.v7x

variable {F : FTy → Type} [FloatOps F]

class Facts₀ : Prop where
  bcast_S100000_S1x100000_1 : S100000.BroadcastsInDim S1x100000 (![1] : Fin 1 → Fin S1x100000.rank)
  concatenates_S1x100000_S1x100000_S2x100000_d0 : Shape.Concatenates [S1x100000, S1x100000] S2x100000 0
  concatenates_S2x3200000_S2x100000_S2x3300000_d1 : Shape.Concatenates [S2x3200000, S2x100000] S2x3300000 1
  bcast_S_S100000 : S_.BroadcastsInDim S100000 (![] : Fin 0 → Fin S100000.rank)
  concatenates_S3200000_S100000_S3300000_d0 : Shape.Concatenates [S3200000, S100000] S3300000 0
  slices_S2x3300000_S1x3300000_0_0 : S2x3300000.Slices ![0, 0] S1x3300000
  shapeCasts_S1x3300000_S3300000 : S1x3300000.ShapeCasts S3300000
  slices_S2x3300000_S1x3300000_1_0 : S2x3300000.Slices ![1, 0] S1x3300000
  bcast_S3300000_S3300000x1_0 : S3300000.BroadcastsInDim S3300000x1 (![0] : Fin 1 → Fin S3300000x1.rank)
  bcast_S_S3300000 : S_.BroadcastsInDim S3300000 (![] : Fin 0 → Fin S3300000.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x64_S100000x64_1_0_0_1_n_n_wf : DotDims.WF S100000x128 S128x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x1_S100000x1_1_0_0_1_n_n_wf : DotDims.WF S100000x64 S64x1 S100000x1 [1] [0] [0] [1] [] []
  gather_S100000x1_S3300000x1_S3300000x1_1_0_n_n_0_1_11_wf : GatherDims.WF S100000x1 S3300000x1 S3300000x1 [1] [0] [] [0] [] 1 ![1, 1]
  scatter_S100000x1_S3300000x1_S3300000x1_1_0_0_1_wf : ScatterDims.WF S100000x1 S3300000x1 S3300000x1 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000x1_S3300000x1_S3300000x1_1_0_n_n_0_1_11 : GatherDims S100000x1 S3300000x1 S3300000x1 where
  offsetDims := [1]
  collapsedSliceDims := [0]
  operandBatchingDims := []
  startIndicesBatchingDims := []
  startIndexMap := [0]
  indexVectorDim := 1
  sliceSizes := ![1, 1]
  wf := gather_S100000x1_S3300000x1_S3300000x1_1_0_n_n_0_1_11_wf
def scatter_S100000x1_S3300000x1_S3300000x1_1_0_0_1 : ScatterDims S100000x1 S3300000x1 S3300000x1 where
  updateWindowDims := [1]
  insertedWindowDims := [0]
  scatterDimsToOperandDims := [0]
  indexVectorDim := 1
  wf := scatter_S100000x1_S3300000x1_S3300000x1_1_0_0_1_wf

class Facts : Prop extends Facts₀ where

variable [Facts]
-- ==== Proof.Edges.lean ====
/-
  The edge list with the self-loops appended, built two ways: slice a row of the edge array and append the node
  numbers, or append the self-loops to the edge array and slice a row. Entry e is the edge array's entry for
  e < 3200000 and the node number e − 3200000 after that.
-/
import proofs.«144972_j29274497089560_1_alg».proof.Proof.Gen.KernelIdeal
import proofs.«144972_j29274497089560_1_alg».proof.Proof.Gen.ReferenceIdeal.Read
import Idealize.ShloMosaic.Lib.Pipeline.Value
import Idealize.ShloMosaic.Lib.ValueIdx

set_option maxRecDepth 16384

noncomputable section

namespace Cert.KernelIdeal.Edges

open Cert.KernelIdeal Cert.KernelIdeal.Gen Idealize.ShloMosaic Idealize.ShloMosaic.TcCoe
open Idealize.ShloMosaic.ValueIdx

variable {F : FTy → Type} [FloatOps F]

/-- The source node of every edge: row 0 of the edge array, then every node once. -/
def row (x1 : (⟨S2x3200000, .i32⟩ : BufTy).Contents (Elt F)) : (⟨S3300000, .i32⟩ : BufTy).Contents (Elt F) :=
  concatenate S3300000 0 [⟨S3200000, shapeCast S3200000 (extractStridedSlice S1x3200000 ![0, 0] x1 slices_S2x3200000_S1x3200000_0_0) shapeCasts_S1x3200000_S3200000⟩, ⟨S100000, iotaInDim S100000 32 0⟩] concatenates_S3200000_S100000_S3300000_d0

/-- The target node of every edge: row 1 of the edge array, then every node once. -/
def col (x1 : (⟨S2x3200000, .i32⟩ : BufTy).Contents (Elt F)) : (⟨S3300000, .i32⟩ : BufTy).Contents (Elt F) :=
  concatenate S3300000 0 [⟨S3200000, shapeCast S3200000 (extractStridedSlice S1x3200000 ![1, 0] x1 slices_S2x3200000_S1x3200000_1_0) shapeCasts_S1x3200000_S3200000⟩, ⟨S100000, iotaInDim S100000 32 0⟩] concatenates_S3200000_S100000_S3300000_d0

/-- The index (r, e) of the edge array. -/
abbrev eix (r : Nat) (hr : r < 2) (e : Nat) (he : e < 3200000) : S2x3200000.Idx := fun a => match a with
  | ⟨0, _⟩ => ⟨r, hr⟩
  | ⟨1, _⟩ => ⟨e, he⟩

/-- An entry before the self-loops, as an index of the first piece. -/
abbrev lo1 (i : S3300000.Idx) (h : (i 0).val < 3200000) : S3200000.Idx := fun a => match a with
  | ⟨0, _⟩ => ⟨(i 0).val, h⟩

/-- An entry before the self-loops, as an index of the one-row slice. -/
abbrev lo2 (i : S3300000.Idx) (h : (i 0).val < 3200000) : S1x3200000.Idx := fun a => match a with
  | ⟨0, _⟩ => ⟨0, Nat.one_pos⟩
  | ⟨1, _⟩ => ⟨(i 0).val, h⟩

/-- A self-loop entry, as an index of the node numbers. -/
abbrev hi1 (i : S3300000.Idx) (h : 3200000 ≤ (i 0).val) : S100000.Idx := fun a => match a with
  | ⟨0, _⟩ => ⟨(i 0).val - 3200000, by have h0 : (i 0).val < 3300000 := (i 0).isLt; show (i 0).val - 3200000 < 100000; omega⟩

/-- Before entry 3200000 the appended vector is its first piece. -/
theorem cat_lo {α : Type} (a : S3200000.Idx → α) (b : S100000.Idx → α) (i : S3300000.Idx) (h : (i 0).val < 3200000) :
    concatenate S3300000 0 [⟨S3200000, a⟩, ⟨S100000, b⟩] concatenates_S3200000_S100000_S3300000_d0 i = a (lo1 i h) :=
  concatenate_pair_apply_left (0 : Fin 1) a b concatenates_S3200000_S100000_S3300000_d0 i rfl (lo1 i h)
    (fun c => match c with | ⟨0, _⟩ => rfl)

/-- From entry 3200000 on the appended vector is its second piece, 3200000 entries back. -/
theorem cat_hi {α : Type} (a : S3200000.Idx → α) (b : S100000.Idx → α) (i : S3300000.Idx) (h : 3200000 ≤ (i 0).val) :
    concatenate S3300000 0 [⟨S3200000, a⟩, ⟨S100000, b⟩] concatenates_S3200000_S100000_S3300000_d0 i = b (hi1 i h) :=
  concatenate_pair_apply_right (0 : Fin 1) a b concatenates_S3200000_S100000_S3300000_d0 i rfl rfl (hi1 i h)
    (fun c => match c with | ⟨0, _⟩ => fun hne => absurd (Fin.ext rfl) hne)
    (by show (i 0).val - 3200000 + 3200000 = (i 0).val; omega)

/-- A row of the edge array, sliced and flattened, at entry e is the edge array at (r, e). -/
theorem flat_apply (x1 : (⟨S2x3200000, .i32⟩ : BufTy).Contents (Elt F)) (off : Fin 2 → Nat) (hs : S2x3200000.Slices off S1x3200000)
    (r : Nat) (hr : r < 2) (h0 : off 0 = r) (h1 : off 1 = 0) (i : S3300000.Idx) (h : (i 0).val < 3200000) :
    shapeCast S3200000 (extractStridedSlice S1x3200000 off x1 hs) shapeCasts_S1x3200000_S3200000 (lo1 i h) = x1 (eix r hr (i 0).val h) := by
  refine (shapeCast_apply _ shapeCasts_S1x3200000_S3200000 (lo1 i h) (lo2 i h)
    (by rewrite [Shape.rowMajor_val_two, Shape.rowMajor_val_one]; show 0 * 3200000 + (i 0).val = (i 0).val; omega)).trans ?_
  exact extractStridedSlice_apply off x1 hs (lo2 i h) (eix r hr (i 0).val h) (fun a => match a with
    | ⟨0, _⟩ => by show r = off 0 + 0; omega
    | ⟨1, _⟩ => by show (i 0).val = off 1 + (i 0).val; omega)

theorem row_lo (x1 : (⟨S2x3200000, .i32⟩ : BufTy).Contents (Elt F)) (i : S3300000.Idx) (h : (i 0).val < 3200000) :
    row (F := F) x1 i = x1 (eix 0 (by omega) (i 0).val h) := by
  unfold row
  exact (cat_lo _ _ i h).trans (flat_apply x1 ![0, 0] slices_S2x3200000_S1x3200000_0_0 0 (by omega) rfl rfl i h)

theorem col_lo (x1 : (⟨S2x3200000, .i32⟩ : BufTy).Contents (Elt F)) (i : S3300000.Idx) (h : (i 0).val < 3200000) :
    col (F := F) x1 i = x1 (eix 1 (by omega) (i 0).val h) := by
  unfold col
  exact (cat_lo _ _ i h).trans (flat_apply x1 ![1, 0] slices_S2x3200000_S1x3200000_1_0 1 (by omega) rfl rfl i h)

theorem row_hi (x1 : (⟨S2x3200000, .i32⟩ : BufTy).Contents (Elt F)) (i : S3300000.Idx) (h : 3200000 ≤ (i 0).val) :
    row (F := F) x1 i = BitVec.ofNat 32 ((i 0).val - 3200000) := by
  unfold row
  exact cat_hi _ _ i h

theorem col_hi (x1 : (⟨S2x3200000, .i32⟩ : BufTy).Contents (Elt F)) (i : S3300000.Idx) (h : 3200000 ≤ (i 0).val) :
    col (F := F) x1 i = BitVec.ofNat 32 ((i 0).val - 3200000) := by
  unfold col
  exact cat_hi _ _ i h

open Cert.ReferenceIdeal.Read in
/-- The edge array with the self-loops appended, before column 3200000: the edge array. -/
theorem v4_lo (x1 : (⟨S2x3200000, .i32⟩ : BufTy).Contents (Elt F)) (j : Cert.ReferenceIdeal.S2x3300000.Idx)
    (r : Nat) (hr : r < 2) (e : Nat) (he : e < 3200000) (h0 : (j 0).val = r) (h1 : (j 1).val = e) :
    val_main_v4 (F := F) x1 j = x1 (eix r hr e he) := by
  unfold val_main_v4
  exact concatenate_pair_apply_left (1 : Fin 2) x1 (val_main_v3 (F := F)) Cert.ReferenceIdeal.Facts₀.concatenates_S2x3200000_S2x100000_S2x3300000_d1 j rfl (eix r hr e he)
    (fun c => match c with
      | ⟨0, _⟩ => by show r = (j 0).val; omega
      | ⟨1, _⟩ => by show e = (j 1).val; omega)

/-- The index (r, e) of the two rows of node numbers. -/
abbrev nix (r : Nat) (hr : r < 2) (e : Nat) (he : e < 100000) : Cert.ReferenceIdeal.S2x100000.Idx := fun a => match a with
  | ⟨0, _⟩ => ⟨r, hr⟩
  | ⟨1, _⟩ => ⟨e, he⟩

/-- The index (0, e) of one row of node numbers. -/
abbrev nix1 (e : Nat) (he : e < 100000) : Cert.ReferenceIdeal.S1x100000.Idx := fun a => match a with
  | ⟨0, _⟩ => ⟨0, Nat.one_pos⟩
  | ⟨1, _⟩ => ⟨e, he⟩

open Cert.ReferenceIdeal.Read in
/-- Both rows of the self-loop array are the node numbers. -/
theorem v3_apply (r : Nat) (hr : r < 2) (e : Nat) (he : e < 100000) :
    val_main_v3 (F := F) (nix r hr e he) = BitVec.ofNat 32 e := by
  unfold val_main_v3
  by_cases hr0 : r = 0
  · refine (concatenate_pair_apply_left (0 : Fin 2) (val_main_v1 (F := F)) (val_main_v2 (F := F)) Cert.ReferenceIdeal.Facts₀.concatenates_S1x100000_S1x100000_S2x100000_d0 (nix r hr e he) rfl (nix1 e he)
      (fun c => match c with
        | ⟨0, _⟩ => by show 0 = r; omega
        | ⟨1, _⟩ => rfl)).trans ?_
    rw [val_main_v1_apply]; rfl
  · refine (concatenate_pair_apply_right (0 : Fin 2) (val_main_v1 (F := F)) (val_main_v2 (F := F)) Cert.ReferenceIdeal.Facts₀.concatenates_S1x100000_S1x100000_S2x100000_d0 (nix r hr e he) rfl rfl (nix1 e he)
      (fun c => match c with
        | ⟨0, _⟩ => fun hne => absurd (Fin.ext rfl) hne
        | ⟨1, _⟩ => fun _ => rfl)
      (by show 0 + 1 = r; omega)).trans ?_
    rw [val_main_v2_apply]; rfl

open Cert.ReferenceIdeal.Read in
/-- The edge array with the self-loops appended, from column 3200000 on: the node numbers. -/
theorem v4_hi (x1 : (⟨S2x3200000, .i32⟩ : BufTy).Contents (Elt F)) (j : Cert.ReferenceIdeal.S2x3300000.Idx)
    (d : Nat) (hd : d < 100000) (h1 : (j 1).val = d + 3200000) :
    val_main_v4 (F := F) x1 j = BitVec.ofNat 32 d := by
  have hj0 : (j 0).val < 2 := (j 0).isLt
  unfold val_main_v4
  refine (concatenate_pair_apply_right (1 : Fin 2) x1 (val_main_v3 (F := F)) Cert.ReferenceIdeal.Facts₀.concatenates_S2x3200000_S2x100000_S2x3300000_d1 j rfl rfl (nix (j 0).val hj0 d hd)
      (fun c => match c with
        | ⟨0, _⟩ => fun _ => rfl
        | ⟨1, _⟩ => fun hne => absurd (Fin.ext rfl) hne)
      (by show d + 3200000 = (j 1).val; omega)).trans ?_
  exact v3_apply (j 0).val hj0 d hd

open Cert.ReferenceIdeal.Read in
theorem row_eq (x1 : (⟨S2x3200000, .i32⟩ : BufTy).Contents (Elt F)) : row (F := F) x1 = Cert.ReferenceIdeal.Read.val_main_v8 (F := F) x1 := by
  funext i
  have hi : (i 0).val < 3300000 := (i 0).isLt
  rw [val_main_v8_apply, val_main_v7_apply]
  by_cases h : (i 0).val < 3200000
  · rw [row_lo x1 i h]
    exact (v4_lo x1 _ 0 (by omega) (i 0).val h rfl (by show (i 0).val % 3300000 = (i 0).val; omega)).symm
  · rw [row_hi x1 i (by omega)]
    exact (v4_hi x1 _ ((i 0).val - 3200000) (by omega) (by show (i 0).val % 3300000 = (i 0).val - 3200000 + 3200000; omega)).symm

open Cert.ReferenceIdeal.Read in
theorem col_eq (x1 : (⟨S2x3200000, .i32⟩ : BufTy).Contents (Elt F)) : col (F := F) x1 = Cert.ReferenceIdeal.Read.val_main_v10 (F := F) x1 := by
  funext i
  have hi : (i 0).val < 3300000 := (i 0).isLt
  rw [val_main_v10_apply, val_main_v9_apply]
  by_cases h : (i 0).val < 3200000
  · rw [col_lo x1 i h]
    exact (v4_lo x1 _ 1 (by omega) (i 0).val h rfl (by show (i 0).val % 3300000 = (i 0).val; omega)).symm
  · rw [col_hi x1 i (by omega)]
    exact (v4_hi x1 _ ((i 0).val - 3200000) (by omega) (by show (i 0).val % 3300000 = (i 0).val - 3200000 + 3200000; omega)).symm

/-- Entry e of a vector, as an index. -/
abbrev vix (e : Fin 3300000) : S3300000.Idx := fun a => match a with
  | ⟨0, _⟩ => e

/-- A vector reshaped to one column is the vector broadcast along the rows of one column. -/
theorem reshape_eq_bcast (v : (⟨S3300000, .f32⟩ : BufTy).Contents (Elt F)) :
    shapeCast S3300000x1 v shapeCasts_S3300000_S3300000x1 = broadcastInDim S3300000x1 ![0] Cert.ReferenceIdeal.Facts₀.bcast_S3300000_S3300000x1_0 v := by
  funext i
  have hi0 : (i 0).val < 3300000 := (i 0).isLt
  have hi1 : (i 1).val < 1 := (i 1).isLt
  refine (shapeCast_apply v shapeCasts_S3300000_S3300000x1 i (vix (i 0))
    (by rewrite [Shape.rowMajor_val_two, Shape.rowMajor_val_one]; show (i 0).val = (i 0).val * 1 + (i 1).val; omega)).trans ?_
  exact (broadcastInDim_apply _ Cert.ReferenceIdeal.Facts₀.bcast_S3300000_S3300000x1_0 v i (vix (i 0)) (fun a => match a with
    | ⟨0, _⟩ => by show (i 0).val = if (3300000 : Nat) = 1 then 0 else (i 0).val; rw [if_neg (by decide)])).symm

end Cert.KernelIdeal.Edges

end
-- ==== Proof.Fold0.lean ====
/-
  The kernel program before its first region: the edge list with self-loops and every edge's normalisation weight, read
  off the host stretches one stretch at a time.

  A host stretch writes each of its results as its operation of earlier buffers and leaves every other buffer alone.
  The stretches of the two calls of the select-with-a-scalar function read and write their buffers through a transport
  along the buffer's type, which is the identity; it is taken off with the earlier buffers' contents as variables.
-/
import proofs.«144972_j29274497089560_1_alg».proof.Proof.Gen.KernelIdeal.Frame
import proofs.«144972_j29274497089560_1_alg».proof.Proof.Edges
import Idealize.ShloMosaic.Lib.StableHlo.Run

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo

/-! ## The host stretches' functions, named -/

/-- The edge weights with weight one for every self-loop. -/
def ewOf (x2 : FVec Ideal S3200000 .f32) : FVec Ideal S3300000 .f32 :=
  concatenate S3300000 0 [⟨S3200000, x2⟩, ⟨S100000, broadcastInDim S100000 ![] bcast_S_S100000 (constant (F := Ideal) S_ .f32 0x3F800000#32)⟩] concatenates_S3200000_S100000_S3300000_d0

/-- A node list as the one-column index array a gather or a scatter takes. -/
def asIdx (r : IVec S3300000 32) : IVec S3300000x1 32 :=
  broadcastInDim S3300000x1 ![0] bcast_S3300000_S3300000x1_0 r

/-- A negative node number counted from the end (what indexing an array does before it gathers). -/
def wrap (r : IVec S3300000 32) : IVec S3300000 32 :=
  select (cmpi .slt r (broadcastInDim S3300000 ![] bcast_S_S3300000 (constantI S_ 32 0#32)))
    (addi r (broadcastInDim S3300000 ![] bcast_S_S3300000 (constantI S_ 32 100000#32))) r

/-- Every node's weighted in-degree: the edge weights summed into their target nodes. -/
def degOf (col : IVec S3300000 32) (ew : FVec Ideal S3300000 .f32) : FVec Ideal S100000 .f32 :=
  Host.scatterAdd scatter_S100000_S3300000x1_S3300000_n_0_0_1 (broadcastInDim S100000 ![] bcast_S_S100000 (constant (F := Ideal) S_ .f32 0x00000000#32)) (asIdx col) ew

/-- Where a degree is positive. -/
def posOf (deg : FVec Ideal S100000 .f32) : IVec S100000 1 :=
  cmpf .ogt deg (broadcastInDim S100000 ![] bcast_S_S100000 (constant (F := Ideal) S_ .f32 0x00000000#32))

/-- A positive degree, one elsewhere. -/
def safeOf (deg : FVec Ideal S100000 .f32) : FVec Ideal S100000 .f32 :=
  select (posOf deg) deg (broadcastInDim S100000 ![] bcast_S_S100000 (id (constant (F := Ideal) S_ .f32 0x3F800000#32)))

/-- The inverse square root of a positive degree, zero elsewhere. -/
def dinvOf (deg : FVec Ideal S100000 .f32) : FVec Ideal S100000 .f32 :=
  select (posOf deg) (Host.rsqrt (safeOf deg)) (broadcastInDim S100000 ![] bcast_S_S100000 (id (constant (F := Ideal) S_ .f32 0x00000000#32)))

/-- Every edge's normalisation weight from the inverse root degrees: the source's, times the edge weight, times the target's. -/
def normFrom (dinv : FVec Ideal S100000 .f32) (row col : IVec S3300000 32) (ew : FVec Ideal S3300000 .f32) : FVec Ideal S3300000 .f32 :=
  mulf (mulf (Host.gather gather_S100000_S3300000x1_S3300000_n_0_n_n_0_1_1 dinv (asIdx (wrap row))) ew)
    (Host.gather gather_S100000_S3300000x1_S3300000_n_0_n_n_0_1_1 dinv (asIdx (wrap col)))

/-- Every edge's normalisation weight. -/
def normOf (row col : IVec S3300000 32) (ew : FVec Ideal S3300000 .f32) : FVec Ideal S3300000 .f32 :=
  normFrom (dinvOf (degOf col ew)) row col ew

/-- The host operations' results inside a joined operand list, which the one-pass reading leaves untouched: each operation's
    result at its own buffer is its function's value, at another buffer what was there. -/
macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

variable (m : (ℓ : Loc nD τ sig) → Buf (Elt Ideal) ℓ) (ρ : Dev nD → PrngReg)

/-! ## After the first stretch: the edge list, the edge weights, the degrees -/

theorem W1_deg (c : Dev nD) : W1 m ρ c (Proc.devRef .tc main_v11) = (degOf (Edges.col (F := Ideal) (m ((c.tc : Thread nD τ).loc main_arg1))) (ewOf (m ((c.tc : Thread nD τ).loc main_arg2)))) := by
  after_results_simp; results_rw; rfl
theorem W1_pos (c : Dev nD) : W1 m ρ c (Proc.devRef .tc main_v13) = posOf (degOf (Edges.col (F := Ideal) (m ((c.tc : Thread nD τ).loc main_arg1))) (ewOf (m ((c.tc : Thread nD τ).loc main_arg2)))) := by
  after_results_simp; results_rw; rfl
theorem W1_one (c : Dev nD) : W1 m ρ c (Proc.devRef .tc main_cst_2) = constant (F := Ideal) S_ .f32 0x3F800000#32 := by
  after_results_simp

/-! ## After the first select: the degrees made safe for the inverse root -/

theorem W2_safe (c : Dev nD) : W2 m ρ c (Proc.devRef .tc main_v14) = safeOf (degOf (Edges.col (F := Ideal) (m ((c.tc : Thread nD τ).loc main_arg1))) (ewOf (m ((c.tc : Thread nD τ).loc main_arg2)))) := by
  have h11 := W1_deg m ρ c
  have h13 := W1_pos m ρ c
  have h1 := W1_one m ρ c
  show StableHlo.after hostOps0_1 (W1 m ρ c) (Proc.devRef .tc main_v14) = _
  generalize W1 m ρ c = W at h11 h13 h1 ⊢
  after_results_simp
  generalize W (Proc.devRef .tc main_v13) = p at h13 ⊢
  generalize W (Proc.devRef .tc main_v11) = d at h11 ⊢
  generalize W (Proc.devRef .tc main_cst_2) = k at h1 ⊢
  refine Eq.trans (b := select p d (broadcastInDim S100000 ![] bcast_S_S100000 (id k))) rfl ?_
  rw [h13, h11, h1]
  rfl
theorem W2_deg (c : Dev nD) : W2 m ρ c (Proc.devRef .tc main_v11) = (degOf (Edges.col (F := Ideal) (m ((c.tc : Thread nD τ).loc main_arg1))) (ewOf (m ((c.tc : Thread nD τ).loc main_arg2)))) := by
  have h11 := W1_deg m ρ c
  show StableHlo.after hostOps0_1 (W1 m ρ c) (Proc.devRef .tc main_v11) = _
  generalize W1 m ρ c = W at h11 ⊢
  after_results_simp
  exact h11

/-! ## After the third stretch: the inverse roots -/

theorem W3_rs (c : Dev nD) : W3 m ρ c (Proc.devRef .tc main_v17) = Host.rsqrt (safeOf (degOf (Edges.col (F := Ideal) (m ((c.tc : Thread nD τ).loc main_arg1))) (ewOf (m ((c.tc : Thread nD τ).loc main_arg2))))) := by
  have h14 := W2_safe m ρ c
  show StableHlo.after hostOps0_2 (W2 m ρ c) (Proc.devRef .tc main_v17) = _
  generalize W2 m ρ c = W at h14 ⊢
  after_results_simp
  rw [h14]
theorem W3_pos (c : Dev nD) : W3 m ρ c (Proc.devRef .tc main_v16) = posOf (degOf (Edges.col (F := Ideal) (m ((c.tc : Thread nD τ).loc main_arg1))) (ewOf (m ((c.tc : Thread nD τ).loc main_arg2)))) := by
  have h11 := W2_deg m ρ c
  show StableHlo.after hostOps0_2 (W2 m ρ c) (Proc.devRef .tc main_v16) = _
  generalize W2 m ρ c = W at h11 ⊢
  after_results_simp
  rw [h11]
  rfl
theorem W3_zero (c : Dev nD) : W3 m ρ c (Proc.devRef .tc main_cst_4) = constant (F := Ideal) S_ .f32 0x00000000#32 := by
  show StableHlo.after hostOps0_2 (W2 m ρ c) (Proc.devRef .tc main_cst_4) = _
  generalize W2 m ρ c = W
  after_results_simp

/-! ## After the second select: the inverse root degrees -/

theorem W4_dinv (c : Dev nD) : W4 m ρ c (Proc.devRef .tc main_v18) = dinvOf (degOf (Edges.col (F := Ideal) (m ((c.tc : Thread nD τ).loc main_arg1))) (ewOf (m ((c.tc : Thread nD τ).loc main_arg2)))) := by
  have h16 := W3_pos m ρ c
  have h17 := W3_rs m ρ c
  have h0 := W3_zero m ρ c
  show StableHlo.after hostOps0_3 (W3 m ρ c) (Proc.devRef .tc main_v18) = _
  generalize W3 m ρ c = W at h16 h17 h0 ⊢
  after_results_simp
  generalize W (Proc.devRef .tc main_v16) = p at h16 ⊢
  generalize W (Proc.devRef .tc main_v17) = r at h17 ⊢
  generalize W (Proc.devRef .tc main_cst_4) = k at h0 ⊢
  refine Eq.trans (b := select p r (broadcastInDim S100000 ![] bcast_S_S100000 (id k))) rfl ?_
  rw [h16, h17, h0]
  rfl
theorem W4_row (c : Dev nD) : W4 m ρ c (Proc.devRef .tc main_v3) = (Edges.row (F := Ideal) (m ((c.tc : Thread nD τ).loc main_arg1))) := by
  after_results; rfl
theorem W4_col (c : Dev nD) : W4 m ρ c (Proc.devRef .tc main_v6) = (Edges.col (F := Ideal) (m ((c.tc : Thread nD τ).loc main_arg1))) := by
  after_results; rfl
theorem W4_ew (c : Dev nD) : W4 m ρ c (Proc.devRef .tc main_v8) = (ewOf (m ((c.tc : Thread nD τ).loc main_arg2))) := by
  after_results; rfl

/-! ## Before the first region -/

theorem W5_norm (c : Dev nD) : W5 m ρ c (Proc.devRef .tc main_v35)
    = shapeCast S3300000x1 (normOf (Edges.row (F := Ideal) (m ((c.tc : Thread nD τ).loc main_arg1))) (Edges.col (F := Ideal) (m ((c.tc : Thread nD τ).loc main_arg1))) (ewOf (m ((c.tc : Thread nD τ).loc main_arg2)))) shapeCasts_S3300000_S3300000x1 := by
  have h18 := W4_dinv m ρ c
  have h3 := W4_row m ρ c
  have h6 := W4_col m ρ c
  have h8 := W4_ew m ρ c
  show StableHlo.after hostOps0_4 (W4 m ρ c) (Proc.devRef .tc main_v35) = _
  generalize W4 m ρ c = W at h18 h3 h6 h8 ⊢
  after_results_simp
  rw [h18, h3, h6, h8]
  rfl
theorem W5_row (c : Dev nD) : W5 m ρ c (Proc.devRef .tc main_v3) = (Edges.row (F := Ideal) (m ((c.tc : Thread nD τ).loc main_arg1))) := by
  after_results; rfl
theorem W5_col (c : Dev nD) : W5 m ρ c (Proc.devRef .tc main_v6) = (Edges.col (F := Ideal) (m ((c.tc : Thread nD τ).loc main_arg1))) := by
  after_results; rfl
theorem W5_arg0 (c : Dev nD) : W5 m ρ c (Proc.devRef .tc main_arg0) = m ((c.tc : Thread nD τ).loc main_arg0) := by
  after_results
theorem W5_arg3 (c : Dev nD) : W5 m ρ c (Proc.devRef .tc main_arg3) = m ((c.tc : Thread nD τ).loc main_arg3) := by
  after_results
theorem W5_arg4 (c : Dev nD) : W5 m ρ c (Proc.devRef .tc main_arg4) = m ((c.tc : Thread nD τ).loc main_arg4) := by
  after_results
theorem W5_arg5 (c : Dev nD) : W5 m ρ c (Proc.devRef .tc main_arg5) = m ((c.tc : Thread nD τ).loc main_arg5) := by
  after_results
theorem W5_arg6 (c : Dev nD) : W5 m ρ c (Proc.devRef .tc main_arg6) = m ((c.tc : Thread nD τ).loc main_arg6) := by
  after_results

end Cert.KernelIdeal.Fold

end
-- ==== Proof.Region0.lean ====
/-
  The first kernel region: the node features times the first weight matrix, block of rows by block of rows.

  Grid point t stages rows 5000·t … 5000·t + 4999 of the feature array [100000, 128] and the whole weight matrix
  [128, 64], and writes back the block whose entry (p, q) is the sum over the 128 contracted entries of feature (p, k)
  times weight (k, q): the format changes are the identity on extended reals and the accumulator starts at zero. The
  20 blocks tile the output array, so after the region the output array is, index by index, the reference's product
  of the two whole arrays.
-/
import proofs.«144972_j29274497089560_1_alg».proof.Proof.Gen.KernelIdeal.Frame
import proofs.«144972_j29274497089560_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Reg0

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The left operand's row coordinate is the output's row. -/
theorem lhs_blk_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- The left operand's column coordinate is the contracted one. -/
theorem lhs_blk_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
/-- The right operand's row coordinate is the contracted one. -/
theorem rhs_blk_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
/-- The right operand's column coordinate is the output's column. -/
theorem rhs_blk_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- Entry (p, q) of what the body stores: the sum over k of feature (p, k) of the staged block times weight (k, q). -/
theorem pay_apply (x0 : Vec Ideal S5000x128 .f32) (x1 : Vec Ideal S128x64 .f32) (p : Fin 5000) (q : Fin 64) :
    k0_pay1 x0 x1 (ix2 p q) = ∑ k : Fin 128, x0 (ix2 p k) * x1 (ix2 k q) := by
  unfold k0_pay1
  refine (Ideal.matmul_constant_zero_apply dot_S5000x128_S128x64_S5000x64_1_0_0_1_n_n none _ _ (ix2 p q)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k := funext fun a => Fin.ext (by
    match a with
    | ⟨0, _⟩ => exact lhs_blk_0 _ _
    | ⟨1, _⟩ => exact (lhs_blk_1 _ _).trans hk)
  have er : dot_S5000x128_S128x64_S5000x64_1_0_0_1_n_n.rhsIdx (ix2 p q) ((contrEquiv1 dot_S5000x128_S128x64_S5000x64_1_0_0_1_n_n 128 rfl rfl).symm k) = ix2 k q := funext fun a => Fin.ext (by
    match a with
    | ⟨0, _⟩ => exact (rhs_blk_0 _ _).trans hk
    | ⟨1, _⟩ => exact rhs_blk_1 _ _)
  rw [truncf_apply, truncf_apply, el, er]

/-- Windows 0 and 2 move together along the rows, window 1 stays: at point t they stage block t of the features and of
    the output, and the one block of the weights. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The features as the region finds them. -/
abbrev xarr (c : Dev nD) : FVec Ideal S100000x128 .f32 := V c main_arg0
/-- The weights as the region finds them. -/
abbrev warr (c : Dev nD) : FVec Ideal S128x64 .f32 := V c main_arg3

/-- What point t writes back is block t of the reference's product of the arrays the region finds. -/
theorem flushed_eq (c : Dev nD) (t : Fin cfg0.N) :
    (dat0 V c).flushed 2 t = ((cfg0.win 2).blk t).view.read (Elt Ideal) (Cert.ReferenceIdeal.Read.val_main_v37 (F := Ideal) (V c main_arg0) (V c main_arg3)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  obtain ⟨e0, e1, e2, e3, e4, e5⟩ := idx_facts t
  funext j
  obtain ⟨p, q, rfl⟩ : ∃ (p : Fin 5000) (q : Fin 64), j = ix2 p q := ⟨j 0, j 1, eq_ix2 j⟩
  show k0_pay1 (iblk0 V c 0 t) (iblk0 V c 1 t) (ix2 p q) = Cert.ReferenceIdeal.Read.val_main_v37 (F := Ideal) (V c main_arg0) (V c main_arg3) (((cfg0.win 2).blk t).view.emb (ix2 p q))
  refine (pay_apply (iblk0 V c 0 t) (iblk0 V c 1 t) p q).trans ?_
  refine Eq.trans ?_ (Cert.ReferenceIdeal.Read.val_main_v37_apply _ _ _).symm
  refine Finset.sum_congr rfl fun k _ => ?_
  show xarr V c (((cfg0.win 0).blk t).view.emb (ix2 p k)) * warr V c (((cfg0.win 1).blk t).view.emb (ix2 k q))
    = xarr V c (Cert.ReferenceIdeal.Read.lidx_main_v37 (((cfg0.win 2).blk t).view.emb (ix2 p q)) k) * warr V c (Cert.ReferenceIdeal.Read.ridx_main_v37 (((cfg0.win 2).blk t).view.emb (ix2 p q)) k)
  have h0 : ((cfg0.win 0).blk t).view.emb (ix2 p k) = Cert.ReferenceIdeal.Read.lidx_main_v37 (((cfg0.win 2).blk t).view.emb (ix2 p q)) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : ((cfg0.win 1).blk t).view.emb (ix2 k q) = Cert.ReferenceIdeal.Read.ridx_main_v37 (((cfg0.win 2).blk t).view.emb (ix2 p q)) k := by
    funext a; apply Fin.ext
    match a with
    | ⟨0, _⟩ => show win0_1.index t (0 : Fin 2) * 128 + 1 * k.val = k.val; omega
    | ⟨1, _⟩ => show win0_1.index t (1 : Fin 2) * 64 + 1 * q.val = win0_2.index t (1 : Fin 2) * 64 + 1 * q.val; omega
  rw [h0, h1]

/-- An index of the output array is in point t's block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v36).slice (win0_2.rect t)).set ↔ _
  rw [View.set_slice_whole, Rect.mem_set_unit]
  exact Iff.rfl

/-- After the region the output array is the whole product of the features with the weights: row r lies in the block
    of point r / 5000. -/
theorem final (c : Dev nD) : (dat0 V c).arrAt 2 cfg0.N = Cert.ReferenceIdeal.Read.val_main_v37 (F := Ideal) (V c main_arg0) (V c main_arg3) :=
  (dat0 V c).arrAt_eq_of_cover 2 (Cert.ReferenceIdeal.Read.val_main_v37 (F := Ideal) (V c main_arg0) (V c main_arg3)) (fun t _ => flushed_eq V c t) (fun i => by
    have hi0 : (i 0).val < 100000 := (i 0).isLt
    have hi1 : (i 1).val < 64 := (i 1).isLt
    have hN : cfg0.N = 20 := N_0
    have ht : (i 0).val / 5000 < cfg0.N := by rw [hN]; omega
    obtain ⟨e0, e1, e2, e3, e4, e5⟩ := idx_facts ⟨(i 0).val / 5000, ht⟩
    refine ⟨⟨(i 0).val / 5000, ht⟩, flush0_2 _, ?_⟩
    rw [mem_blk]
    intro a
    match a with
    | ⟨0, _⟩ =>
      show win0_2.index ⟨(i 0).val / 5000, ht⟩ (0 : Fin 2) * 5000 ≤ (i 0).val ∧ (i 0).val < win0_2.index ⟨(i 0).val / 5000, ht⟩ (0 : Fin 2) * 5000 + 5000
      rw [e4]; show (i 0).val / 5000 * 5000 ≤ (i 0).val ∧ (i 0).val < (i 0).val / 5000 * 5000 + 5000; omega
    | ⟨1, _⟩ =>
      show win0_2.index ⟨(i 0).val / 5000, ht⟩ (1 : Fin 2) * 64 ≤ (i 1).val ∧ (i 1).val < win0_2.index ⟨(i 0).val / 5000, ht⟩ (1 : Fin 2) * 64 + 64
      rw [e5]; omega)

end Cert.KernelIdeal.Reg0

end
-- ==== Proof.Region1.lean ====
/-
  The second kernel region: every row of the gathered edge features scaled by that edge's normalisation weight.

  Grid point t stages rows 6600·t … 6600·t + 6599 of the feature array [3300000, 64] and of the weight column
  [3300000, 1], and writes back the block whose entry (p, q) is feature (p, q) times weight (p, 0) — the weight column
  broadcast along the 64 features. The 500 blocks tile the array, so after the region the output array is, index by
  index, the weight column broadcast to 64 columns times the features: the reference's product with the factors in the
  other order (the product of extended reals commutes).
-/
import proofs.«144972_j29274497089560_1_alg».proof.Proof.Gen.KernelIdeal.Frame
import proofs.«144972_j29274497089560_1_alg».proof.Proof.Gen.ReferenceIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The scaled features as one array: the weight column broadcast along the features, times the features. -/
def scaled (g : FVec Ideal S3300000x64 .f32) (nc : FVec Ideal S3300000x1 .f32) : FVec Ideal S3300000x64 .f32 :=
  mulf (broadcastInDim S3300000x64 ![0, 1] Cert.ReferenceIdeal.Facts₀.bcast_S3300000x1_S3300000x64_0_1 nc) g

/-- Entry (e, q) of the scaled features is feature (e, q) times weight e (the product of extended reals commutes). -/
theorem scaled_apply (g : FVec Ideal S3300000x64 .f32) (nc : FVec Ideal S3300000x1 .f32) (i : S3300000x64.Idx) :
    scaled g nc i = g i * nc (ix2 (i 0) (0 : Fin 1)) := by
  unfold scaled
  rw [mulf_apply, mul_comm]
  refine congrArg (g i * ·) ?_
  exact broadcastInDim_apply _ Cert.ReferenceIdeal.Facts₀.bcast_S3300000x1_S3300000x64_0_1 nc i (ix2 (i 0) (0 : Fin 1)) (fun a => match a with
    | ⟨0, _⟩ => by show (i 0).val = if (3300000 : Nat) = 1 then 0 else (i 0).val; rw [if_neg (by decide)]
    | ⟨1, _⟩ => by show 0 = if (1 : Nat) = 1 then 0 else (i 1).val; rw [if_pos rfl])

/-- Entry (p, q) of what the body stores: feature (p, q) of the staged block times weight (p, 0) of the staged column. -/
theorem pay_apply (x0 : Vec Ideal S6600x64 .f32) (x1 : Vec Ideal S6600x1 .f32) (p : Fin 6600) (q : Fin 64) :
    k1_pay1 x0 x1 (ix2 p q) = x0 (ix2 p q) * x1 (ix2 p (0 : Fin 1)) := by
  unfold k1_pay1
  rw [mulf_apply, shapeCast_self, shapeCast_self]
  refine congrArg (x0 (ix2 p q) * ·) ?_
  exact broadcastTo_apply x1 broadcasts_S6600x1_S6600x64 (ix2 p q) (ix2 p (0 : Fin 1)) (fun a => match a with
    | ⟨0, _⟩ => by show p.val = if (6600 : Nat) = 1 then 0 else p.val; rw [if_neg (by decide)]
    | ⟨1, _⟩ => by show 0 = if (1 : Nat) = 1 then 0 else q.val; rw [if_pos rfl])

/-- The three windows move together: at point t each stages block t along the edge axis, block 0 along the other. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The gathered features as the region finds them. -/
abbrev feat (c : Dev nD) : FVec Ideal S3300000x64 .f32 := V c main_v43
/-- The weight column as the region finds it. -/
abbrev wcol (c : Dev nD) : FVec Ideal S3300000x1 .f32 := V c main_v35

/-- What point t writes back is block t of the scaled features of the arrays the region finds. -/
theorem flushed_eq (c : Dev nD) (t : Fin cfg1.N) :
    (dat1 V c).flushed 2 t = ((cfg1.win 2).blk t).view.read (Elt Ideal) (scaled (V c main_v43) (V c main_v35)) := by
  show (cfg1.win 2).cut (grid1.coords t) ((dat1 V c).after 2 t) = _
  rw [after1_2]
  unfold out1_2
  rw [View.canon_unit_zero hz]
  simp only [View.ld_unit_zero (S := S6600x64) hz, View.ld_unit_zero (S := S6600x1) hz]
  obtain ⟨e0, e1, e2, e3, e4, e5⟩ := idx_facts t
  funext j
  obtain ⟨p, q, rfl⟩ : ∃ (p : Fin 6600) (q : Fin 64), j = ix2 p q := ⟨j 0, j 1, eq_ix2 j⟩
  show k1_pay1 (iblk1 V c 0 t) (iblk1 V c 1 t) (ix2 p q) = scaled (V c main_v43) (V c main_v35) (((cfg1.win 2).blk t).view.emb (ix2 p q))
  refine (pay_apply (iblk1 V c 0 t) (iblk1 V c 1 t) p q).trans ?_
  rw [scaled_apply]
  show feat V c (((cfg1.win 0).blk t).view.emb (ix2 p q)) * wcol V c (((cfg1.win 1).blk t).view.emb (ix2 p (0 : Fin 1))) = _
  have h0 : ((cfg1.win 0).blk t).view.emb (ix2 p q) = ((cfg1.win 2).blk t).view.emb (ix2 p q) := by
    funext a; apply Fin.ext
    match a with
    | ⟨0, _⟩ => show win1_0.index t (0 : Fin 2) * 6600 + 1 * p.val = win1_2.index t (0 : Fin 2) * 6600 + 1 * p.val; omega
    | ⟨1, _⟩ => show win1_0.index t (1 : Fin 2) * 64 + 1 * q.val = win1_2.index t (1 : Fin 2) * 64 + 1 * q.val; omega
  have h1 : ((cfg1.win 1).blk t).view.emb (ix2 p (0 : Fin 1)) = ix2 ((((cfg1.win 2).blk t).view.emb (ix2 p q)) 0) (0 : Fin 1) := by
    funext a; apply Fin.ext
    match a with
    | ⟨0, _⟩ => show win1_1.index t (0 : Fin 2) * 6600 + 1 * p.val = win1_2.index t (0 : Fin 2) * 6600 + 1 * p.val; omega
    | ⟨1, _⟩ => show win1_1.index t (1 : Fin 2) * 1 + 1 * 0 = 0; omega
  rw [h0, h1]
  rfl

/-- An index of the output array is in point t's block iff each coordinate is in the block's range on its axis. -/
theorem mem_blk (t : Fin cfg1.N) (i : S3300000x64.Idx) :
    i ∈ ((cfg1.win 2).blk t).view.set ↔ ∀ a : Fin 2, win1_2.index t a * S6600x64.size a ≤ (i a).val ∧ (i a).val < win1_2.index t a * S6600x64.size a + S6600x64.size a := by
  show i ∈ ((View.whole main_v44).slice (win1_2.rect t)).set ↔ _
  rw [View.set_slice_whole, Rect.mem_set_unit]
  exact Iff.rfl

/-- After the region the output array is the scaled features: row e lies in the block of point e / 6600. -/
theorem final (c : Dev nD) : (dat1 V c).arrAt 2 cfg1.N = scaled (V c main_v43) (V c main_v35) :=
  (dat1 V c).arrAt_eq_of_cover 2 (scaled (V c main_v43) (V c main_v35)) (fun t _ => flushed_eq V c t) (fun i => by
    have hi0 : (i 0).val < 3300000 := (i 0).isLt
    have hi1 : (i 1).val < 64 := (i 1).isLt
    have hN : cfg1.N = 500 := N_1
    have ht : (i 0).val / 6600 < cfg1.N := by rw [hN]; omega
    obtain ⟨e0, e1, e2, e3, e4, e5⟩ := idx_facts ⟨(i 0).val / 6600, ht⟩
    refine ⟨⟨(i 0).val / 6600, ht⟩, flush1_2 _, ?_⟩
    rw [mem_blk]
    intro a
    match a with
    | ⟨0, _⟩ =>
      show win1_2.index ⟨(i 0).val / 6600, ht⟩ (0 : Fin 2) * 6600 ≤ (i 0).val ∧ (i 0).val < win1_2.index ⟨(i 0).val / 6600, ht⟩ (0 : Fin 2) * 6600 + 6600
      rw [e4]; show (i 0).val / 6600 * 6600 ≤ (i 0).val ∧ (i 0).val < (i 0).val / 6600 * 6600 + 6600; omega
    | ⟨1, _⟩ =>
      show win1_2.index ⟨(i 0).val / 6600, ht⟩ (1 : Fin 2) * 64 ≤ (i 1).val ∧ (i 1).val < win1_2.index ⟨(i 0).val / 6600, ht⟩ (1 : Fin 2) * 64 + 64
      rw [e5]; omega)

end Cert.KernelIdeal.Reg1

end
-- ==== Proof.Region2.lean ====
/-
  The third kernel region: the first layer's aggregate plus the bias, rectified, times the second weight column, block
  of rows by block of rows.

  Grid point t stages rows 5000·t … 5000·t + 4999 of the aggregate [100000, 64], the whole bias row [1, 64] and the whole
  weight column [64, 1], and writes back the block whose entry (p, 0) is the sum over the 64 features k of
  max (aggregate (p, k) + bias (0, k)) 0 times weight (k, 0). The 20 blocks tile the output column, so after the region
  the output array is, index by index, the reference's contraction of the rectified biased aggregate with the weight
  column — the bias row being the bias reshaped to one row, which the reference broadcasts over the nodes.
-/
import proofs.«144972_j29274497089560_1_alg».proof.Proof.Gen.KernelIdeal.Frame
import proofs.«144972_j29274497089560_1_alg».proof.Proof.Gen.ReferenceIdeal.Read
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Reg2

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The second layer's input to the aggregation as one array: the first-layer aggregate plus the bias (broadcast over
    the nodes), rectified, times the second weight column. -/
def hidden (a : FVec Ideal S100000x64 .f32) (b1 : FVec Ideal S64 .f32) (w : FVec Ideal S64x1 .f32) : FVec Ideal S100000x1 .f32 :=
  Host.dotGeneral Cert.ReferenceIdeal.dot_S100000x64_S64x1_S100000x1_1_0_0_1_n_n none
    (maximumf (addf a (Cert.ReferenceIdeal.Read.val_main_v52 (F := Ideal) b1)) (Cert.ReferenceIdeal.Read.val_main_call2_v0 (F := Ideal))) w

/-- The reference's contraction read at an index: entry i is the sum over the 64 features k of the left operand at
    (i 0, k) times the right operand at (k, i 1). -/
theorem dot_apply (y : FVec Ideal S100000x64 .f32) (w : FVec Ideal S64x1 .f32) (i : S100000x1.Idx) :
    Host.dotGeneral (F := Ideal) Cert.ReferenceIdeal.dot_S100000x64_S64x1_S100000x1_1_0_0_1_n_n none y w i
      = ∑ k : Fin 64, y (Cert.ReferenceIdeal.Read.lidx_main_v85 i k) * w (Cert.ReferenceIdeal.Read.ridx_main_v85 i k) := by
  simp only [Host.dotGeneral]
  rw [Ideal.dotGeneral_apply, ← Equiv.sum_comp (ValueIdx.contrEquiv1 Cert.ReferenceIdeal.dot_S100000x64_S64x1_S100000x1_1_0_0_1_n_n 64 rfl rfl).symm]
  refine Finset.sum_congr rfl fun k _ => ?_
  have hk := ValueIdx.contrEquiv1_symm_val Cert.ReferenceIdeal.dot_S100000x64_S64x1_S100000x1_1_0_0_1_n_n 64 rfl rfl k
  have el : Cert.ReferenceIdeal.dot_S100000x64_S64x1_S100000x1_1_0_0_1_n_n.lhsIdx i ((ValueIdx.contrEquiv1 Cert.ReferenceIdeal.dot_S100000x64_S64x1_S100000x1_1_0_0_1_n_n 64 rfl rfl).symm k) = Cert.ReferenceIdeal.Read.lidx_main_v85 i k := funext fun a => Fin.ext (by
    match a with
    | ⟨0, _⟩ => exact Cert.ReferenceIdeal.Read.lhs_main_v85_0 _ _
    | ⟨1, _⟩ => exact (Cert.ReferenceIdeal.Read.lhs_main_v85_1 _ _).trans hk)
  have er : Cert.ReferenceIdeal.dot_S100000x64_S64x1_S100000x1_1_0_0_1_n_n.rhsIdx i ((ValueIdx.contrEquiv1 Cert.ReferenceIdeal.dot_S100000x64_S64x1_S100000x1_1_0_0_1_n_n 64 rfl rfl).symm k) = Cert.ReferenceIdeal.Read.ridx_main_v85 i k := funext fun a => Fin.ext (by
    match a with
    | ⟨0, _⟩ => exact (Cert.ReferenceIdeal.Read.rhs_main_v85_0 _ _).trans hk
    | ⟨1, _⟩ => exact Cert.ReferenceIdeal.Read.rhs_main_v85_1 _ _)
  rw [el, er]

/-- The block product's left operand index at output index i and contraction index q: the row of i on the row axis … -/
theorem klhs_0 (i : S5000x1.Idx) (q : dot_S5000x64_S64x1_S5000x1_1_0_0_1_n_n.contr.Idx) :
    (dot_S5000x64_S64x1_S5000x1_1_0_0_1_n_n.lhsIdx i q 0).val = (i 0).val := by
  unfold DotDims.lhsIdx
  rw [dif_neg (show ¬(0 : Fin S5000x64.rank) ∈ dot_S5000x64_S64x1_S5000x1_1_0_0_1_n_n.lhsBatch by decide), dif_pos (show (0 : Fin S5000x64.rank) ∈ dot_S5000x64_S64x1_S5000x1_1_0_0_1_n_n.lhsNonContracting by decide)]
  rfl
/-- … and the contraction coordinate on the feature axis. -/
theorem klhs_1 (i : S5000x1.Idx) (q : dot_S5000x64_S64x1_S5000x1_1_0_0_1_n_n.contr.Idx) :
    (dot_S5000x64_S64x1_S5000x1_1_0_0_1_n_n.lhsIdx i q 1).val = (q ⟨0, by decide⟩).val :=
  dot_S5000x64_S64x1_S5000x1_1_0_0_1_n_n.lhsIdx_val_of_single rfl i q
/-- The right operand index: the contraction coordinate on the feature axis … -/
theorem krhs_0 (i : S5000x1.Idx) (q : dot_S5000x64_S64x1_S5000x1_1_0_0_1_n_n.contr.Idx) :
    (dot_S5000x64_S64x1_S5000x1_1_0_0_1_n_n.rhsIdx i q 0).val = (q ⟨0, by decide⟩).val :=
  dot_S5000x64_S64x1_S5000x1_1_0_0_1_n_n.rhsIdx_val_of_single rfl i q
/-- … and the column of i on the column axis. -/
theorem krhs_1 (i : S5000x1.Idx) (q : dot_S5000x64_S64x1_S5000x1_1_0_0_1_n_n.contr.Idx) :
    (dot_S5000x64_S64x1_S5000x1_1_0_0_1_n_n.rhsIdx i q 1).val = (i 1).val := by
  unfold DotDims.rhsIdx
  rw [dif_neg (show ¬(1 : Fin S64x1.rank) ∈ dot_S5000x64_S64x1_S5000x1_1_0_0_1_n_n.rhsBatch by decide), dif_pos (show (1 : Fin S64x1.rank) ∈ dot_S5000x64_S64x1_S5000x1_1_0_0_1_n_n.rhsNonContracting by decide)]
  rfl

/-- Entry (p, q) of what the body stores: the sum over the 64 features k of the rectified (staged aggregate (p, k) plus
    staged bias (0, k)) times the staged weight (k, q). -/
theorem pay_apply (v0 : Vec Ideal S5000x64 .f32) (v2 : Vec Ideal S1x64 .f32) (v9 : Vec Ideal S64x1 .f32) (p : Fin 5000) (q : Fin 1) :
    k2_pay1 v0 v2 v9 (ix2 p q) = ∑ k : Fin 64, max (v0 (ix2 p k) + v2 (ix2 (0 : Fin 1) k)) (Ideal.ofBits .f32 0x00000000#32) * v9 (ix2 k q) := by
  unfold k2_pay1
  simp only [matmul]
  rw [Ideal.matmul_constant_zero_apply, ← Equiv.sum_comp (ValueIdx.contrEquiv1 dot_S5000x64_S64x1_S5000x1_1_0_0_1_n_n 64 rfl rfl).symm]
  refine Finset.sum_congr rfl fun k _ => ?_
  have hk := ValueIdx.contrEquiv1_symm_val dot_S5000x64_S64x1_S5000x1_1_0_0_1_n_n 64 rfl rfl k
  have el : dot_S5000x64_S64x1_S5000x1_1_0_0_1_n_n.lhsIdx (ix2 p q) ((ValueIdx.contrEquiv1 dot_S5000x64_S64x1_S5000x1_1_0_0_1_n_n 64 rfl rfl).symm k) = ix2 p k := funext fun a => Fin.ext (by
    match a with
    | ⟨0, _⟩ => exact klhs_0 _ _
    | ⟨1, _⟩ => exact (klhs_1 _ _).trans hk)
  have er : dot_S5000x64_S64x1_S5000x1_1_0_0_1_n_n.rhsIdx (ix2 p q) ((ValueIdx.contrEquiv1 dot_S5000x64_S64x1_S5000x1_1_0_0_1_n_n 64 rfl rfl).symm k) = ix2 k q := funext fun a => Fin.ext (by
    match a with
    | ⟨0, _⟩ => exact (krhs_0 _ _).trans hk
    | ⟨1, _⟩ => exact krhs_1 _ _)
  rw [el, er, truncf_apply, truncf_apply, maximumf_apply, addf_apply, shapeCast_self, shapeCast_self, broadcast_apply]
  refine congrArg (fun z => max (v0 (ix2 p k) + z) _ * v9 (ix2 k q)) ?_
  exact broadcastTo_apply v2 broadcasts_S1x64_S5000x64 (ix2 p k) (ix2 (0 : Fin 1) k) (fun a => match a with
    | ⟨0, _⟩ => by show 0 = if (1 : Nat) = 1 then 0 else p.val; rw [if_pos rfl]
    | ⟨1, _⟩ => by show k.val = if (64 : Nat) = 1 then 0 else k.val; rw [if_neg (by decide)])

/-- The reference's array read at an index: entry i is the sum over the 64 features k of the rectified (aggregate
    (i 0, k) plus bias k) times weight (k, i 1) — the broadcast bias read through its two broadcasts. -/
theorem hidden_apply (a : FVec Ideal S100000x64 .f32) (b1 : FVec Ideal S64 .f32) (w : FVec Ideal S64x1 .f32) (i : S100000x1.Idx) :
    hidden a b1 w i = ∑ k : Fin 64, max (a (Cert.ReferenceIdeal.Read.lidx_main_v85 i k) + b1 (ix1 k)) (Ideal.ofBits .f32 0x00000000#32)
      * w (Cert.ReferenceIdeal.Read.ridx_main_v85 i k) := by
  unfold hidden
  rw [dot_apply]
  refine Finset.sum_congr rfl fun k _ => ?_
  rw [maximumf_apply, addf_apply, Cert.ReferenceIdeal.Read.val_main_v52_apply, Cert.ReferenceIdeal.Read.val_main_v51_apply,
    Cert.ReferenceIdeal.Read.val_main_call2_v0_apply, Cert.ReferenceIdeal.Read.val_main_call2_cst_apply]
  have hi : Cert.ReferenceIdeal.Read.idx_main_v51 (Cert.ReferenceIdeal.Read.idx_main_v52 (Cert.ReferenceIdeal.Read.lidx_main_v85 i k)) = ix1 k := by
    funext a; match a with | ⟨0, _⟩ => rfl
  rw [hi]
  rfl

/-- The windows' blocks: at point t the aggregate's and the output's are block t along the node axis, the bias row's
    and the weight column's the whole array. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The first-layer aggregate as the region finds it. -/
abbrev agg (c : Dev nD) : FVec Ideal S100000x64 .f32 := V c main_v47
/-- The bias row as the region finds it. -/
abbrev brow (c : Dev nD) : FVec Ideal S1x64 .f32 := V c main_v48
/-- The second weight column as the region finds it. -/
abbrev wcol (c : Dev nD) : FVec Ideal S64x1 .f32 := V c main_arg5

/-- What point t writes back is block t of the reference's array of the arrays the region finds, the bias row being
    the bias reshaped to one row. -/
theorem flushed_eq (c : Dev nD) (b1 : FVec Ideal S64 .f32) (hb : V c main_v48 = shapeCast S1x64 b1 shapeCasts_S64_S1x64) (t : Fin cfg2.N) :
    (dat2 V c).flushed 3 t = ((cfg2.win 3).blk t).view.read (Elt Ideal) (hidden (V c main_v47) b1 (V c main_arg5)) := by
  show (cfg2.win 3).cut (grid2.coords t) ((dat2 V c).after 3 t) = _
  rw [after2_3]
  unfold out2_3
  rw [View.canon_unit_zero hz]
  simp only [View.ld_unit_zero (S := S5000x64) hz, View.ld_unit_zero (S := S1x64) hz, View.ld_unit_zero (S := S64x1) hz]
  obtain ⟨e0, e1, e2, e3, e4, e5, e6, e7⟩ := idx_facts t
  funext j
  obtain ⟨p, q, rfl⟩ : ∃ (p : Fin 5000) (q : Fin 1), j = ix2 p q := ⟨j 0, j 1, eq_ix2 j⟩
  show k2_pay1 (iblk2 V c 0 t) (iblk2 V c 1 t) (iblk2 V c 2 t) (ix2 p q) = hidden (V c main_v47) b1 (V c main_arg5) (((cfg2.win 3).blk t).view.emb (ix2 p q))
  refine (pay_apply (iblk2 V c 0 t) (iblk2 V c 1 t) (iblk2 V c 2 t) p q).trans ?_
  rw [hidden_apply]
  refine Finset.sum_congr rfl fun k _ => ?_
  show max (agg V c (((cfg2.win 0).blk t).view.emb (ix2 p k)) + brow V c (((cfg2.win 1).blk t).view.emb (ix2 (0 : Fin 1) k))) (Ideal.ofBits .f32 0x00000000#32)
    * wcol V c (((cfg2.win 2).blk t).view.emb (ix2 k q)) = _
  have h0 : ((cfg2.win 0).blk t).view.emb (ix2 p k) = Cert.ReferenceIdeal.Read.lidx_main_v85 (((cfg2.win 3).blk t).view.emb (ix2 p q)) k := by
    funext a; apply Fin.ext
    match a with
    | ⟨0, _⟩ => show win2_0.index t (0 : Fin 2) * 5000 + 1 * p.val = win2_3.index t (0 : Fin 2) * 5000 + 1 * p.val; omega
    | ⟨1, _⟩ => show win2_0.index t (1 : Fin 2) * 64 + 1 * k.val = k.val; omega
  have h2 : ((cfg2.win 2).blk t).view.emb (ix2 k q) = Cert.ReferenceIdeal.Read.ridx_main_v85 (((cfg2.win 3).blk t).view.emb (ix2 p q)) k := by
    funext a; apply Fin.ext
    match a with
    | ⟨0, _⟩ => show win2_2.index t (0 : Fin 2) * 64 + 1 * k.val = k.val; omega
    | ⟨1, _⟩ => show win2_2.index t (1 : Fin 2) * 1 + 1 * q.val = win2_3.index t (1 : Fin 2) * 1 + 1 * q.val; omega
  have hb' : brow V c = shapeCast S1x64 b1 shapeCasts_S64_S1x64 := hb
  have h1 : brow V c (((cfg2.win 1).blk t).view.emb (ix2 (0 : Fin 1) k)) = b1 (ix1 k) := by
    rw [hb']
    exact shapeCast_apply b1 shapeCasts_S64_S1x64 (((cfg2.win 1).blk t).view.emb (ix2 (0 : Fin 1) k)) (ix1 k) (by
      rewrite [Shape.rowMajor_val_two, Shape.rowMajor_val_one]
      show k.val = (win2_1.index t (0 : Fin 2) * 1 + 1 * 0) * 64 + (win2_1.index t (1 : Fin 2) * 64 + 1 * k.val)
      omega)
  rw [h0, h1, h2]

/-- An index of the output array is in point t's block iff each coordinate is in the block's range on its axis. -/
theorem mem_blk (t : Fin cfg2.N) (i : S100000x1.Idx) :
    i ∈ ((cfg2.win 3).blk t).view.set ↔ ∀ a : Fin 2, win2_3.index t a * S5000x1.size a ≤ (i a).val ∧ (i a).val < win2_3.index t a * S5000x1.size a + S5000x1.size a := by
  show i ∈ ((View.whole main_v49).slice (win2_3.rect t)).set ↔ _
  rw [View.set_slice_whole, Rect.mem_set_unit]
  exact Iff.rfl

/-- After the region the output array is that array, when the staged bias row is the bias reshaped to one row: row n
    lies in the block of point n / 5000. -/
theorem final (c : Dev nD) (b1 : FVec Ideal S64 .f32) (hb : V c main_v48 = shapeCast S1x64 b1 shapeCasts_S64_S1x64) :
    (dat2 V c).arrAt 3 cfg2.N = hidden (V c main_v47) b1 (V c main_arg5) :=
  (dat2 V c).arrAt_eq_of_cover 3 (hidden (V c main_v47) b1 (V c main_arg5)) (fun t _ => flushed_eq V c b1 hb t) (fun i => by
    have hi0 : (i 0).val < 100000 := (i 0).isLt
    have hi1 : (i 1).val < 1 := (i 1).isLt
    have hN : cfg2.N = 20 := N_2
    have ht : (i 0).val / 5000 < cfg2.N := by rw [hN]; omega
    obtain ⟨e0, e1, e2, e3, e4, e5, e6, e7⟩ := idx_facts ⟨(i 0).val / 5000, ht⟩
    refine ⟨⟨(i 0).val / 5000, ht⟩, flush2_3 _, ?_⟩
    rw [mem_blk]
    intro a
    match a with
    | ⟨0, _⟩ =>
      show win2_3.index ⟨(i 0).val / 5000, ht⟩ (0 : Fin 2) * 5000 ≤ (i 0).val ∧ (i 0).val < win2_3.index ⟨(i 0).val / 5000, ht⟩ (0 : Fin 2) * 5000 + 5000
      rw [e6]; show (i 0).val / 5000 * 5000 ≤ (i 0).val ∧ (i 0).val < (i 0).val / 5000 * 5000 + 5000; omega
    | ⟨1, _⟩ =>
      show win2_3.index ⟨(i 0).val / 5000, ht⟩ (1 : Fin 2) * 1 ≤ (i 1).val ∧ (i 1).val < win2_3.index ⟨(i 0).val / 5000, ht⟩ (1 : Fin 2) * 1 + 1
      rw [e7]; omega)

end Cert.KernelIdeal.Reg2

end
-- ==== Proof.Fold1.lean ====
/-
  The kernel program from its first region to its result, one boundary at a time.

  A region leaves each of its arrays at what its write-backs make of it — an input array as it was, the output array at
  the region's whole-array function — and every other buffer alone; a host stretch writes its results and leaves every
  other buffer alone. Read back through the boundaries, the result buffer holds: the second layer's sum into the target
  nodes of the normalisation weight times the gathered second-layer input, plus the bias; the second-layer input is the
  rectified, biased first-layer aggregate times the second weight; the first-layer aggregate is the sum into the target
  nodes of the normalisation weight times the gathered product of the features with the first weight.
-/
import proofs.«144972_j29274497089560_1_alg».proof.Proof.Gen.KernelIdeal.Frame
import proofs.«144972_j29274497089560_1_alg».proof.Proof.Gen.ReferenceIdeal.Read
import proofs.«144972_j29274497089560_1_alg».proof.Proof.Edges
import proofs.«144972_j29274497089560_1_alg».proof.Proof.Fold0
import proofs.«144972_j29274497089560_1_alg».proof.Proof.Region0
import proofs.«144972_j29274497089560_1_alg».proof.Proof.Region1
import proofs.«144972_j29274497089560_1_alg».proof.Proof.Region2
import Idealize.ShloMosaic.Lib.StableHlo.Run
import Idealize.ShloMosaic.Lib.Pipeline.Value

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo
open Idealize.ShloMosaic.Pipeline (Dat)

/-! ## The values at the boundaries, as functions of the arguments -/

/-- The features times the first weight matrix. -/
def h1Of (x0 : FVec Ideal S100000x128 .f32) (x3 : FVec Ideal S128x64 .f32) : FVec Ideal S100000x64 .f32 :=
  Cert.ReferenceIdeal.Read.val_main_v37 (F := Ideal) x0 x3

/-- That product gathered along the edges' source nodes. -/
def g1Of (x0 : FVec Ideal S100000x128 .f32) (x1 : IVec S2x3200000 32) (x3 : FVec Ideal S128x64 .f32) : FVec Ideal S3300000x64 .f32 :=
  Host.gather gather_S100000x64_S3300000x1_S3300000x64_1_0_n_n_0_1_164 (h1Of x0 x3) (asIdx (wrap (Edges.row (F := Ideal) x1)))

/-- The normalisation weights as one column. -/
def normcolOf (x1 : IVec S2x3200000 32) (x2 : FVec Ideal S3200000 .f32) : FVec Ideal S3300000x1 .f32 :=
  shapeCast S3300000x1 (normOf (Edges.row (F := Ideal) x1) (Edges.col (F := Ideal) x1) (ewOf x2)) shapeCasts_S3300000_S3300000x1

/-- The gathered features scaled by the weights. -/
def w1Of (x0 : FVec Ideal S100000x128 .f32) (x1 : IVec S2x3200000 32) (x2 : FVec Ideal S3200000 .f32) (x3 : FVec Ideal S128x64 .f32) : FVec Ideal S3300000x64 .f32 :=
  Reg1.scaled (g1Of x0 x1 x3) (normcolOf x1 x2)

/-- The first layer's aggregate: the scaled features summed into the edges' target nodes. -/
def agg1Of (x0 : FVec Ideal S100000x128 .f32) (x1 : IVec S2x3200000 32) (x2 : FVec Ideal S3200000 .f32) (x3 : FVec Ideal S128x64 .f32) : FVec Ideal S100000x64 .f32 :=
  Host.scatterAdd scatter_S100000x64_S3300000x1_S3300000x64_1_0_0_1 (broadcastInDim S100000x64 ![] bcast_S_S100000x64 (constant (F := Ideal) S_ .f32 0x00000000#32))
    (asIdx (Edges.col (F := Ideal) x1)) (w1Of x0 x1 x2 x3)

/-- The second layer's input: bias, rectifier, second weight. -/
def h2Of (x0 : FVec Ideal S100000x128 .f32) (x1 : IVec S2x3200000 32) (x2 : FVec Ideal S3200000 .f32) (x3 : FVec Ideal S128x64 .f32) (x4 : FVec Ideal S64 .f32) (x5 : FVec Ideal S64x1 .f32) : FVec Ideal S100000x1 .f32 :=
  Reg2.hidden (agg1Of x0 x1 x2 x3) x4 x5

/-- The result: the second layer's gather, scale and sum into the target nodes, plus its bias. -/
def outOf (x0 : FVec Ideal S100000x128 .f32) (x1 : IVec S2x3200000 32) (x2 : FVec Ideal S3200000 .f32) (x3 : FVec Ideal S128x64 .f32) (x4 : FVec Ideal S64 .f32) (x5 : FVec Ideal S64x1 .f32) (x6 : FVec Ideal S1 .f32) : FVec Ideal S100000x1 .f32 :=
  addf (Host.scatterAdd scatter_S100000x1_S3300000x1_S3300000x1_1_0_0_1 (broadcastInDim S100000x1 ![] bcast_S_S100000x1 (constant (F := Ideal) S_ .f32 0x00000000#32))
      (asIdx (Edges.col (F := Ideal) x1))
      (mulf (normcolOf x1 x2) (Host.gather gather_S100000x1_S3300000x1_S3300000x1_1_0_n_n_0_1_11 (h2Of x0 x1 x2 x3 x4 x5) (asIdx (wrap (Edges.row (F := Ideal) x1))))))
    (broadcastInDim S100000x1 ![0, 1] bcast_S1x1_S100000x1_0_1 (broadcastInDim S1x1 ![1] bcast_S1_S1x1_1 x6))

variable (m : (ℓ : Loc nD τ sig) → Buf (Elt Ideal) ℓ) (ρ : Dev nD → PrngReg)

theorem W5_normcol (c : Dev nD) : W5 m ρ c (Proc.devRef .tc main_v35) = (normcolOf (m ((c.tc : Thread nD τ).loc main_arg1)) (m ((c.tc : Thread nD τ).loc main_arg2))) := W5_norm m ρ c

/-! ## After the first region -/

theorem W6_h1 (c : Dev nD) : W6 m ρ c (Proc.devRef .tc main_v36) = (h1Of (m ((c.tc : Thread nD τ).loc main_arg0)) (m ((c.tc : Thread nD τ).loc main_arg3))) := by
  refine (W6_arr m ρ c 2).trans ?_
  refine (Reg0.final (V5 m ρ) c).trans ?_
  exact congrArg₂ (Cert.ReferenceIdeal.Read.val_main_v37 (F := Ideal)) (W5_arg0 m ρ c) (W5_arg3 m ρ c)
theorem W6_row (c : Dev nD) : W6 m ρ c (Proc.devRef .tc main_v3) = (Edges.row (F := Ideal) (m ((c.tc : Thread nD τ).loc main_arg1))) :=
  (W6_of_ne m ρ c main_v3 (by decide)).trans (W5_row m ρ c)
theorem W6_col (c : Dev nD) : W6 m ρ c (Proc.devRef .tc main_v6) = (Edges.col (F := Ideal) (m ((c.tc : Thread nD τ).loc main_arg1))) :=
  (W6_of_ne m ρ c main_v6 (by decide)).trans (W5_col m ρ c)
theorem W6_norm (c : Dev nD) : W6 m ρ c (Proc.devRef .tc main_v35) = (normcolOf (m ((c.tc : Thread nD τ).loc main_arg1)) (m ((c.tc : Thread nD τ).loc main_arg2))) :=
  (W6_of_ne m ρ c main_v35 (by decide)).trans (W5_normcol m ρ c)
theorem W6_arg4 (c : Dev nD) : W6 m ρ c (Proc.devRef .tc main_arg4) = m ((c.tc : Thread nD τ).loc main_arg4) :=
  (W6_of_ne m ρ c main_arg4 (by decide)).trans (W5_arg4 m ρ c)
theorem W6_arg5 (c : Dev nD) : W6 m ρ c (Proc.devRef .tc main_arg5) = m ((c.tc : Thread nD τ).loc main_arg5) :=
  (W6_of_ne m ρ c main_arg5 (by decide)).trans (W5_arg5 m ρ c)
theorem W6_arg6 (c : Dev nD) : W6 m ρ c (Proc.devRef .tc main_arg6) = m ((c.tc : Thread nD τ).loc main_arg6) :=
  (W6_of_ne m ρ c main_arg6 (by decide)).trans (W5_arg6 m ρ c)

/-! ## After the gather along the sources -/

theorem W7_g1 (c : Dev nD) : W7 m ρ c (Proc.devRef .tc main_v43) = (g1Of (m ((c.tc : Thread nD τ).loc main_arg0)) (m ((c.tc : Thread nD τ).loc main_arg1)) (m ((c.tc : Thread nD τ).loc main_arg3))) := by
  have h36 := W6_h1 m ρ c
  have h3 := W6_row m ρ c
  show StableHlo.after hostOps1 (W6 m ρ c) (Proc.devRef .tc main_v43) = _
  generalize W6 m ρ c = W at h36 h3 ⊢
  after_results_simp
  rw [h36, h3]
  rfl
theorem W7_row (c : Dev nD) : W7 m ρ c (Proc.devRef .tc main_v3) = (Edges.row (F := Ideal) (m ((c.tc : Thread nD τ).loc main_arg1))) := by
  have h := W6_row m ρ c
  show StableHlo.after hostOps1 (W6 m ρ c) (Proc.devRef .tc main_v3) = _
  generalize W6 m ρ c = W at h ⊢
  after_results_simp
  exact h
theorem W7_col (c : Dev nD) : W7 m ρ c (Proc.devRef .tc main_v6) = (Edges.col (F := Ideal) (m ((c.tc : Thread nD τ).loc main_arg1))) := by
  have h := W6_col m ρ c
  show StableHlo.after hostOps1 (W6 m ρ c) (Proc.devRef .tc main_v6) = _
  generalize W6 m ρ c = W at h ⊢
  after_results_simp
  exact h
theorem W7_norm (c : Dev nD) : W7 m ρ c (Proc.devRef .tc main_v35) = (normcolOf (m ((c.tc : Thread nD τ).loc main_arg1)) (m ((c.tc : Thread nD τ).loc main_arg2))) := by
  have h := W6_norm m ρ c
  show StableHlo.after hostOps1 (W6 m ρ c) (Proc.devRef .tc main_v35) = _
  generalize W6 m ρ c = W at h ⊢
  after_results_simp
  exact h
theorem W7_arg4 (c : Dev nD) : W7 m ρ c (Proc.devRef .tc main_arg4) = m ((c.tc : Thread nD τ).loc main_arg4) := by
  have h := W6_arg4 m ρ c
  show StableHlo.after hostOps1 (W6 m ρ c) (Proc.devRef .tc main_arg4) = _
  generalize W6 m ρ c = W at h ⊢
  after_results_simp
  exact h
theorem W7_arg5 (c : Dev nD) : W7 m ρ c (Proc.devRef .tc main_arg5) = m ((c.tc : Thread nD τ).loc main_arg5) := by
  have h := W6_arg5 m ρ c
  show StableHlo.after hostOps1 (W6 m ρ c) (Proc.devRef .tc main_arg5) = _
  generalize W6 m ρ c = W at h ⊢
  after_results_simp
  exact h
theorem W7_arg6 (c : Dev nD) : W7 m ρ c (Proc.devRef .tc main_arg6) = m ((c.tc : Thread nD τ).loc main_arg6) := by
  have h := W6_arg6 m ρ c
  show StableHlo.after hostOps1 (W6 m ρ c) (Proc.devRef .tc main_arg6) = _
  generalize W6 m ρ c = W at h ⊢
  after_results_simp
  exact h

/-! ## After the second region -/

theorem W8_w1 (c : Dev nD) : W8 m ρ c (Proc.devRef .tc main_v44) = (w1Of (m ((c.tc : Thread nD τ).loc main_arg0)) (m ((c.tc : Thread nD τ).loc main_arg1)) (m ((c.tc : Thread nD τ).loc main_arg2)) (m ((c.tc : Thread nD τ).loc main_arg3))) := by
  refine (W8_arr m ρ c 2).trans ?_
  refine (Reg1.final (V7 m ρ) c).trans ?_
  exact congrArg₂ Reg1.scaled (W7_g1 m ρ c) (W7_norm m ρ c)
theorem W8_norm (c : Dev nD) : W8 m ρ c (Proc.devRef .tc main_v35) = (normcolOf (m ((c.tc : Thread nD τ).loc main_arg1)) (m ((c.tc : Thread nD τ).loc main_arg2))) := by
  refine (W8_arr m ρ c 1).trans ?_
  refine ((dat1 (V7 m ρ) c).arrAt_in 1 rfl _).trans ?_
  exact (A_eq1 (V7 m ρ) c 1).trans (W7_norm m ρ c)
theorem W8_row (c : Dev nD) : W8 m ρ c (Proc.devRef .tc main_v3) = (Edges.row (F := Ideal) (m ((c.tc : Thread nD τ).loc main_arg1))) :=
  (W8_of_ne m ρ c main_v3 (by decide)).trans (W7_row m ρ c)
theorem W8_col (c : Dev nD) : W8 m ρ c (Proc.devRef .tc main_v6) = (Edges.col (F := Ideal) (m ((c.tc : Thread nD τ).loc main_arg1))) :=
  (W8_of_ne m ρ c main_v6 (by decide)).trans (W7_col m ρ c)
theorem W8_arg4 (c : Dev nD) : W8 m ρ c (Proc.devRef .tc main_arg4) = m ((c.tc : Thread nD τ).loc main_arg4) :=
  (W8_of_ne m ρ c main_arg4 (by decide)).trans (W7_arg4 m ρ c)
theorem W8_arg5 (c : Dev nD) : W8 m ρ c (Proc.devRef .tc main_arg5) = m ((c.tc : Thread nD τ).loc main_arg5) :=
  (W8_of_ne m ρ c main_arg5 (by decide)).trans (W7_arg5 m ρ c)
theorem W8_arg6 (c : Dev nD) : W8 m ρ c (Proc.devRef .tc main_arg6) = m ((c.tc : Thread nD τ).loc main_arg6) :=
  (W8_of_ne m ρ c main_arg6 (by decide)).trans (W7_arg6 m ρ c)

/-! ## After the sum into the targets and the bias row -/

theorem W9_agg (c : Dev nD) : W9 m ρ c (Proc.devRef .tc main_v47) = (agg1Of (m ((c.tc : Thread nD τ).loc main_arg0)) (m ((c.tc : Thread nD τ).loc main_arg1)) (m ((c.tc : Thread nD τ).loc main_arg2)) (m ((c.tc : Thread nD τ).loc main_arg3))) := by
  have h6 := W8_col m ρ c
  have h44 := W8_w1 m ρ c
  show StableHlo.after hostOps2 (W8 m ρ c) (Proc.devRef .tc main_v47) = _
  generalize W8 m ρ c = W at h6 h44 ⊢
  after_results_simp
  rw [h6, h44]
  rfl
theorem W9_bias (c : Dev nD) : W9 m ρ c (Proc.devRef .tc main_v48) = shapeCast S1x64 (m ((c.tc : Thread nD τ).loc main_arg4)) shapeCasts_S64_S1x64 := by
  have h4 := W8_arg4 m ρ c
  show StableHlo.after hostOps2 (W8 m ρ c) (Proc.devRef .tc main_v48) = _
  generalize W8 m ρ c = W at h4 ⊢
  after_results_simp
  rw [h4]
  rfl
theorem W9_row (c : Dev nD) : W9 m ρ c (Proc.devRef .tc main_v3) = (Edges.row (F := Ideal) (m ((c.tc : Thread nD τ).loc main_arg1))) := by
  have h := W8_row m ρ c
  show StableHlo.after hostOps2 (W8 m ρ c) (Proc.devRef .tc main_v3) = _
  generalize W8 m ρ c = W at h ⊢
  after_results_simp
  exact h
theorem W9_col (c : Dev nD) : W9 m ρ c (Proc.devRef .tc main_v6) = (Edges.col (F := Ideal) (m ((c.tc : Thread nD τ).loc main_arg1))) := by
  have h := W8_col m ρ c
  show StableHlo.after hostOps2 (W8 m ρ c) (Proc.devRef .tc main_v6) = _
  generalize W8 m ρ c = W at h ⊢
  after_results_simp
  exact h
theorem W9_norm (c : Dev nD) : W9 m ρ c (Proc.devRef .tc main_v35) = (normcolOf (m ((c.tc : Thread nD τ).loc main_arg1)) (m ((c.tc : Thread nD τ).loc main_arg2))) := by
  have h := W8_norm m ρ c
  show StableHlo.after hostOps2 (W8 m ρ c) (Proc.devRef .tc main_v35) = _
  generalize W8 m ρ c = W at h ⊢
  after_results_simp
  exact h
theorem W9_arg5 (c : Dev nD) : W9 m ρ c (Proc.devRef .tc main_arg5) = m ((c.tc : Thread nD τ).loc main_arg5) := by
  have h := W8_arg5 m ρ c
  show StableHlo.after hostOps2 (W8 m ρ c) (Proc.devRef .tc main_arg5) = _
  generalize W8 m ρ c = W at h ⊢
  after_results_simp
  exact h
theorem W9_arg6 (c : Dev nD) : W9 m ρ c (Proc.devRef .tc main_arg6) = m ((c.tc : Thread nD τ).loc main_arg6) := by
  have h := W8_arg6 m ρ c
  show StableHlo.after hostOps2 (W8 m ρ c) (Proc.devRef .tc main_arg6) = _
  generalize W8 m ρ c = W at h ⊢
  after_results_simp
  exact h

/-! ## After the third region -/

theorem W10_h2 (c : Dev nD) : W10 m ρ c (Proc.devRef .tc main_v49) = (h2Of (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  refine (W10_arr m ρ c 3).trans ?_
  refine (Reg2.final (V9 m ρ) c (m ((c.tc : Thread nD τ).loc main_arg4)) (W9_bias m ρ c)).trans ?_
  exact congrArg₂ (fun a w => Reg2.hidden a (m ((c.tc : Thread nD τ).loc main_arg4)) w) (W9_agg m ρ c) (W9_arg5 m ρ c)
theorem W10_row (c : Dev nD) : W10 m ρ c (Proc.devRef .tc main_v3) = (Edges.row (F := Ideal) (m ((c.tc : Thread nD τ).loc main_arg1))) :=
  (W10_of_ne m ρ c main_v3 (by decide)).trans (W9_row m ρ c)
theorem W10_col (c : Dev nD) : W10 m ρ c (Proc.devRef .tc main_v6) = (Edges.col (F := Ideal) (m ((c.tc : Thread nD τ).loc main_arg1))) :=
  (W10_of_ne m ρ c main_v6 (by decide)).trans (W9_col m ρ c)
theorem W10_norm (c : Dev nD) : W10 m ρ c (Proc.devRef .tc main_v35) = (normcolOf (m ((c.tc : Thread nD τ).loc main_arg1)) (m ((c.tc : Thread nD τ).loc main_arg2))) :=
  (W10_of_ne m ρ c main_v35 (by decide)).trans (W9_norm m ρ c)
theorem W10_arg6 (c : Dev nD) : W10 m ρ c (Proc.devRef .tc main_arg6) = m ((c.tc : Thread nD τ).loc main_arg6) :=
  (W10_of_ne m ρ c main_arg6 (by decide)).trans (W9_arg6 m ρ c)

/-! ## The result -/

theorem W11_out (c : Dev nD) : W11 m ρ c (Proc.devRef .tc main_v63) = outOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  have h3 := W10_row m ρ c
  have h6 := W10_col m ρ c
  have h35 := W10_norm m ρ c
  have h49 := W10_h2 m ρ c
  have hb := W10_arg6 m ρ c
  show StableHlo.after hostOps3 (W10 m ρ c) (Proc.devRef .tc main_v63) = _
  generalize W10 m ρ c = W at h3 h6 h35 h49 hb ⊢
  after_results_simp
  rw [h3, h6, h35, h49, hb]
  rfl

end Cert.KernelIdeal.Fold

end
-- ==== Proof.Bridge.lean ====
/-
  The kernel program's result term is the reference's.

  Both programs append the self-loops, compute the symmetric normalisation weights, and run two rounds of transform,
  gather along the sources, scale, and sum into the targets. The kernel program builds the edge list by slicing then
  appending, the reference by appending then slicing (the same list, entry by entry); it reshapes the weights to a
  column where the reference broadcasts them to one (the same column); its three regions compute, as whole arrays, the
  reference's product with the first weight, its scaled gathered features (with the factors in the other order), and
  its rectified, biased aggregate times the second weight. The reference computes the edge list and the weights a
  second time for its second round, by the same operations of the same arguments. Everything else is the same
  operation applied to equal operands.
-/
import proofs.«144972_j29274497089560_1_alg».proof.Proof.Gen.ReferenceIdeal.Read
import proofs.«144972_j29274497089560_1_alg».proof.Proof.Edges
import proofs.«144972_j29274497089560_1_alg».proof.Proof.Fold0
import proofs.«144972_j29274497089560_1_alg».proof.Proof.Fold1

set_option maxRecDepth 16384

noncomputable section

namespace Cert.KernelIdeal.Bridge

open Cert.KernelIdeal Cert.KernelIdeal.Gen Cert.KernelIdeal.Fold Idealize.ShloMosaic Idealize.ShloMosaic.TcCoe
open Cert.ReferenceIdeal.Read

/-- The edge weights with the self-loops' ones: the same concatenation in both programs. -/
theorem ew_eq (x2 : FVec Ideal S3200000 .f32) : ewOf x2 = val_main_v6 (F := Ideal) x2 := rfl

/-- The reference's second reading of the source column is its first. -/
theorem row_again (x1 : IVec S2x3200000 32) : val_main_v56 (F := Ideal) x1 = val_main_v8 (F := Ideal) x1 := rfl
/-- The reference's second reading of the target column is its first. -/
theorem col_again (x1 : IVec S2x3200000 32) : val_main_v58 (F := Ideal) x1 = val_main_v10 (F := Ideal) x1 := rfl

/-- The reference's normalisation weights are the kernel program's function of the edge list and the weights. -/
theorem norm_ref (x1 : IVec S2x3200000 32) (x2 : FVec Ideal S3200000 .f32) :
    val_main_v36 (F := Ideal) x1 x2 = normOf (val_main_v8 (F := Ideal) x1) (val_main_v10 (F := Ideal) x1) (val_main_v6 (F := Ideal) x2) := rfl
/-- The reference's second computation of the normalisation weights is its first. -/
theorem norm_again (x1 : IVec S2x3200000 32) (x2 : FVec Ideal S3200000 .f32) :
    val_main_v84 (F := Ideal) x1 x2 = val_main_v36 (F := Ideal) x1 x2 := rfl

/-- The weight column: a reshape in the kernel program, a broadcast in the reference. -/
theorem normcol_eq (x1 : IVec S2x3200000 32) (x2 : FVec Ideal S3200000 .f32) : normcolOf x1 x2 = val_main_v38 (F := Ideal) x1 x2 := by
  unfold normcolOf
  rw [Edges.row_eq, Edges.col_eq, ew_eq, Edges.reshape_eq_bcast (F := Ideal), ← norm_ref]
  rfl
theorem normcol_again (x1 : IVec S2x3200000 32) (x2 : FVec Ideal S3200000 .f32) : val_main_v86 (F := Ideal) x1 x2 = val_main_v38 (F := Ideal) x1 x2 := by
  unfold val_main_v86 val_main_v38
  rw [norm_again]

/-- The transformed features gathered along the sources. -/
theorem g1_eq (x0 : FVec Ideal S100000x128 .f32) (x1 : IVec S2x3200000 32) (x3 : FVec Ideal S128x64 .f32) :
    g1Of x0 x1 x3 = val_main_v45 (F := Ideal) x0 x1 x3 := by
  unfold g1Of h1Of
  rw [Edges.row_eq]
  rfl

/-- The scaled gathered features. -/
theorem w1_eq (x0 : FVec Ideal S100000x128 .f32) (x1 : IVec S2x3200000 32) (x2 : FVec Ideal S3200000 .f32) (x3 : FVec Ideal S128x64 .f32) :
    w1Of x0 x1 x2 x3 = val_main_v47 (F := Ideal) x0 x1 x2 x3 := by
  unfold w1Of
  rw [g1_eq, normcol_eq]
  rfl

/-- The first layer's aggregate. -/
theorem agg_eq (x0 : FVec Ideal S100000x128 .f32) (x1 : IVec S2x3200000 32) (x2 : FVec Ideal S3200000 .f32) (x3 : FVec Ideal S128x64 .f32) :
    agg1Of x0 x1 x2 x3 = val_main_v50 (F := Ideal) x0 x1 x2 x3 := by
  unfold agg1Of
  rw [w1_eq, Edges.col_eq]
  rfl

/-- The second layer's input. -/
theorem h2_eq (x0 : FVec Ideal S100000x128 .f32) (x1 : IVec S2x3200000 32) (x2 : FVec Ideal S3200000 .f32) (x3 : FVec Ideal S128x64 .f32) (x4 : FVec Ideal S64 .f32) (x5 : FVec Ideal S64x1 .f32) :
    h2Of x0 x1 x2 x3 x4 x5 = val_main_v85 (F := Ideal) x0 x1 x2 x3 x4 x5 := by
  unfold h2Of
  rw [agg_eq]
  rfl

/-- The result. -/
theorem out_eq (x0 : FVec Ideal S100000x128 .f32) (x1 : IVec S2x3200000 32) (x2 : FVec Ideal S3200000 .f32) (x3 : FVec Ideal S128x64 .f32) (x4 : FVec Ideal S64 .f32) (x5 : FVec Ideal S64x1 .f32) (x6 : FVec Ideal S1 .f32) :
    outOf x0 x1 x2 x3 x4 x5 x6 = val_main_v100 (F := Ideal) x0 x1 x2 x3 x4 x5 x6 := by
  unfold outOf
  rw [h2_eq, normcol_eq, Edges.row_eq, Edges.col_eq, ← normcol_again, ← row_again, ← col_again]
  rfl

end Cert.KernelIdeal.Bridge

end
-- ==== Proof.lean ====
/-
  A two-layer graph convolution: the kernel program against its reference, over the extended reals.

  Both programs append one self-loop per node to the edge list, give every edge the weight
  (inverse root degree of its source) · (edge weight) · (inverse root degree of its target), and run two rounds of:
  transform the node features by a weight matrix, gather along the edges' sources, scale by the edge weight, sum into
  the edges' targets, add a bias; a rectifier sits between the rounds. The kernel program does the first transform, the
  first scaling, and bias + rectifier + second transform in three kernel regions, block of rows by block of rows; over
  the extended reals a change of float format is the identity and a block product into a zero accumulator is the plain
  sum, so each region's output array is the reference's whole-array operation of the region's inputs (the scaling with
  its two factors in the other order: the product commutes). The rest of the kernel program is host operations, the
  same as the reference's up to how the edge list is assembled (slice then append, or append then slice) and how a
  vector becomes a column (reshape or broadcast). No law that fails at an infinity is used, so the precondition is not
  opened.

  The three frames: the two kernel programs' are the generated frame certificates; the reference's is its run with the
  result dropped. The idealisation rewrote nothing, so it preserves trivially. The two results: the kernel program's
  run re-posted at the result buffer, read back through the host stretches and regions to one term of the arguments,
  which is the reference's term.
-/
import proofs.«144972_j29274497089560_1_alg».proof.Defs
import proofs.«144972_j29274497089560_1_alg».proof.Proof.Gen.Kernel
import proofs.«144972_j29274497089560_1_alg».proof.Proof.Gen.Kernel.Skeleton
import proofs.«144972_j29274497089560_1_alg».proof.Proof.Gen.Kernel.Launch
import proofs.«144972_j29274497089560_1_alg».proof.Proof.Gen.Kernel.Points
import proofs.«144972_j29274497089560_1_alg».proof.Proof.Gen.Kernel.Frame
import proofs.«144972_j29274497089560_1_alg».proof.Proof.Gen.KernelIdeal
import proofs.«144972_j29274497089560_1_alg».proof.Proof.Gen.KernelIdeal.Skeleton
import proofs.«144972_j29274497089560_1_alg».proof.Proof.Gen.KernelIdeal.Launch
import proofs.«144972_j29274497089560_1_alg».proof.Proof.Gen.KernelIdeal.Points
import proofs.«144972_j29274497089560_1_alg».proof.Proof.Gen.KernelIdeal.Frame
import proofs.«144972_j29274497089560_1_alg».proof.Proof.Gen.ReferenceIdeal
import proofs.«144972_j29274497089560_1_alg».proof.Proof.Gen.ReferenceIdeal.Run
import proofs.«144972_j29274497089560_1_alg».proof.Proof.Gen.ReferenceIdeal.Read
import proofs.«144972_j29274497089560_1_alg».proof.Proof.Gen.Pre_finite_inputs
import proofs.«144972_j29274497089560_1_alg».proof.Proof.KRun
import proofs.«144972_j29274497089560_1_alg».proof.Proof.Fold1
import proofs.«144972_j29274497089560_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and keeps its arguments: the generated frame certificate. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- Both programs end with the same result array: the kernel program's result term of the arguments (read back through
    its stretches and regions) is the reference's. -/
theorem algebraic : Cert.algebraic_KernelIdeal_ReferenceIdeal := by
  intro m ρ m' ρ' _ hagree
  refine ⟨fun c => Cert.KernelIdeal.Fold.outOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Fold.W11_out m ρ c), (h c).2⟩)
      (Cert.KernelIdeal.Gen.run_result m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6⟩ := hagree c
    rw [Cert.ReferenceIdeal.Read.val_main_v100_eq, e0, e1, e2, e3, e4, e5, e6]
    exact (Cert.KernelIdeal.Bridge.out_eq _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
